-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x8192 : Shape := ⟨2, ![16384, 8192]⟩
abbrev S512x512 : Shape := ⟨2, ![512, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x8192 : S_.BroadcastsInDim S16384x8192 (![] : Fin 0 → Fin S16384x8192.rank)
  reducesTo_S16384x8192_S_d0_1 : S16384x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16384x512 .f32) (main_arg1 : FVec F S16384x8192 .f32) (main_arg2 : FVec F S512x512 .f32) (main_arg3 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x8192 .f32 := Host.absf main_arg1
  let main_cst_0 : FVec F S_ .f32 := constant S_ .f32 0x7F800000#32
  let main_v5 : FVec F S16384x8192 .f32 := broadcastInDim S16384x8192 ![] bcast_S_S16384x8192 main_cst_0
  let main_v6 : IVec S16384x8192 1 := cmpf .olt main_v4 main_v5
  let main_c_1 : IVec S_ 1 := constantI S_ 1 1#1
  let main_v7 : IVec S_ 1 := (fun x v => Host.reduce IntOp.andi x v reducesTo_S16384x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16384x512 : Shape := ⟨2, ![16384, 512]⟩
abbrev S16384x8192 : Shape := ⟨2, ![16384, 8192]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩
abbrev S512x8192 : Shape := ⟨2, ![512, 8192]⟩
abbrev S1024x2048 : Shape := ⟨2, ![1024, 2048]⟩
abbrev S1024x512 : Shape := ⟨2, ![1024, 512]⟩
abbrev S512x2048 : Shape := ⟨2, ![512, 2048]⟩
abbrev S1x2048 : Shape := ⟨2, ![1, 2048]⟩
abbrev S2048 : Shape := ⟨1, ![2048]⟩
abbrev S1024x1 : Shape := ⟨2, ![1024, 1]⟩
abbrev S1024 : Shape := ⟨1, ![1024]⟩

abbrev nBuf : Space → Nat
  | .hbm => 8
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x8192, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S16384x512, .bf16⟩
  | .hbm, ⟨6, _⟩ => ⟨S512x8192, .bf16⟩
  | .hbm, ⟨7, _⟩ => ⟨S16384x512, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S1x512, .f32⟩
  | .local _ .vmem, ⟨4, _⟩ => ⟨S2048x512, .bf16⟩
  | .local _ .vmem, ⟨5, _⟩ => ⟨S2048x512, .bf16⟩
  | .local _ .vmem, ⟨6, _⟩ => ⟨S1024x2048, .f32⟩
  | .local _ .vmem, ⟨7, _⟩ => ⟨S1024x2048, .f32⟩
  | .local _ .vmem, ⟨8, _⟩ => ⟨S1024x512, .bf16⟩
  | .local _ .vmem, ⟨9, _⟩ => ⟨S1024x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S512x2048, .bf16⟩
  | .local _ .vmem, ⟨17, _⟩ => ⟨S512x2048, .bf16⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc2_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_13 : BitVec 32 := 0#32
  let v22 : BitVec 1 := Scalar.cmpi .ne v21 c0_i32_13
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x2048_S2048 : S1024x2048.Reduces [0] S2048
  shapeCasts_S2048_S1x2048 : S2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x2048_S1024 : S1024x2048.Reduces [1] S1024
  shapeCasts_S1024_S1024x1 : S1024.ShapeCasts S1024x1
  broadcasts_S1024x1_S1024x512 : S1024x1.Broadcasts S1024x512
  dot_S2048x512_S512x512_S2048x512_1_1_0_0_n_n_wf : DotDims.WF S2048x512 S512x512 S2048x512 [1] [1] [0] [0] [] []
  dot_S1024x512_S1024x2048_S512x2048_0_0_1_1_n_n_wf : DotDims.WF S1024x512 S1024x2048 S512x2048 [0] [0] [1] [1] [] []
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S16384x512.size a
  hwx0_3 : ∀ i : grid0.Coords, EltTy.bits .bf16 = 32 ∨ (Rect.block (s := S16384x512) S2048x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x8192.size a
  hwx1_0 : ∀ i : grid1.Coords, EltTy.bits .f32 = 32 ∨ (Rect.block (s := S16384x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .bf16 = 32 ∨ (Rect.block (s := S16384x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x8192.size a
  hwx1_2 : ∀ i : grid1.Coords, EltTy.bits .bf16 = 32 ∨ (Rect.block (s := S512x8192) S512x2048.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S16384x8192.size a
  hwx2_0 : ∀ i : grid2.Coords, EltTy.bits .f32 = 32 ∨ (Rect.block (s := S16384x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S512x8192.size a
  hwx2_1 : ∀ i : grid2.Coords, EltTy.bits .bf16 = 32 ∨ (Rect.block (s := S512x8192) S512x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S16384x512.size a
  hwx2_2 : ∀ i : grid2.Coords, EltTy.bits .f32 = 32 ∨ (Rect.block (s := S16384x512) S1024x512.size (cc2_transform_2 i) (hinb2_2 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S1024x512_S1024x2048_S512x2048_0_0_1_1_n_n : DotDims S1024x512 S1024x2048 S512x2048 where
  lhsContracting := [0]
  rhsContracting := [0]
  lhsNonContracting := [1]
  rhsNonContracting := [1]
  lhsBatch := []
  rhsBatch := []
  wf := dot_S1024x512_S1024x2048_S512x2048_0_0_1_1_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x8192 : Shape := ⟨2, ![16384, 8192]⟩
abbrev S512x512 : Shape := ⟨2, ![512, 512]⟩
abbrev S512 : Shape := ⟨1, ![512]⟩
abbrev S1x512 : Shape := ⟨2, ![1, 512]⟩
abbrev S8192x16384 : Shape := ⟨2, ![8192, 16384]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x8192, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S16384x512, .f32⟩
  | .hbm, ⟨6, _⟩ => ⟨S1x512, .f32⟩
  | .hbm, ⟨7, _⟩ => ⟨S16384x512, .f32⟩
  | .hbm, ⟨8, _⟩ => ⟨S16384x512, .f32⟩
  | .hbm, ⟨9, _⟩ => ⟨S8192x16384, .f32⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .i1⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8192x1, .f32⟩
  | .hbm, ⟨23, _⟩ => ⟨S8192x512, .f32⟩
  | .hbm, ⟨24, _⟩ => ⟨S8192x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .i1⟩
  | .hbm, ⟨31, _⟩ => ⟨S_, .f32⟩
  | .hbm, ⟨32, _⟩ => ⟨S16384, .f32⟩
  | .hbm, ⟨33, _⟩ => ⟨S_, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384x1, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call2_cst : Ref sig .tc := ⟨.hbm, 40, rfl⟩
abbrev main_call2_v0 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  transposes_S16384x8192_S8192x16384_1_0 : S16384x8192.Transposes [1, 0] S8192x16384
  reducesTo_S16384x8192_S8192_d0 : S16384x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  reducesTo_S16384x8192_S16384_d1 : S16384x8192.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S_S16384x512 : S_.BroadcastsInDim S16384x512 (![] : Fin 0 → Fin S16384x512.rank)
  dot_S16384x512_S512x512_S16384x512_1_0_0_1_n_n_wf : DotDims.WF S16384x512 S512x512 S16384x512 [1] [0] [0] [1] [] []
  dot_S8192x16384_S16384x512_S8192x512_1_0_0_1_n_n_wf : DotDims.WF S8192x16384 S16384x512 S8192x512 [1] [0] [0] [1] [] []
  dot_S16384x8192_S8192x512_S16384x512_1_0_0_1_n_n_wf : DotDims.WF S16384x8192 S8192x512 S16384x512 [1] [0] [0] [1] [] []

variable [Facts₀]

def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S8192x16384_S16384x512_S8192x512_1_0_0_1_n_n : DotDims S8192x16384 S16384x512 S8192x512 where
  lhsContracting := [1]
  rhsContracting := [0]
  lhsNonContracting := [0]
  rhsNonContracting := [1]
  lhsBatch := []
  rhsBatch := []
  wf := dot_S8192x16384_S16384x512_S8192x512_1_0_0_1_n_n_wf
def dot_S16384x8192_S8192x512_S16384x512_1_0_0_1_n_n : DotDims S16384x8192 S8192x512 S16384x512 where
  lhsContracting := [1]
  rhsContracting := [0]
  lhsNonContracting := [0]
  rhsNonContracting := [1]
  lhsBatch := []
  rhsBatch := []
  wf := dot_S16384x8192_S8192x512_S16384x512_1_0_0_1_n_n_wf

class Facts : Prop extends Facts₀ where

variable [Facts]
-- ==== Proof.Bits.Region0.lean ====
/- Region 0 of @main: the linear layer X·Wᵀ + b, one block of 2048 rows per grid point. -/
import proofs.«146423_j40303973106024_1_alg».proof.Proof.Gen.Kernel.Launch
import proofs.«146423_j40303973106024_1_alg».proof.Proof.Gen.Kernel.Skeleton
import proofs.«146423_j40303973106024_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2048x512 := Rect.unit (s := S2048x512) ![0, 0] S2048x512.size inb_S2048x512_S2048x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- What the body leaves in the output window's buffer: its one store over the three input blocks. -/
def out0_3 (x0 : Vec F S2048x512 .f32) (x1 : Vec F S512x512 .f32) (x2 : Vec F S1x512 .f32) : Vec F S2048x512 .bf16 :=
  View.canon [⟨rX0, k0_pay1 (View.ld x0 rX0) (View.ld x1 rW0) (View.ld x2 rB0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows at a point

An input window's body leaves its block where it found it, so at every point its current staging buffer reads the
window's block there: at a point where the pipeline fetched it that is what the fetch brought, and at a point where
it did not the block index has not moved since the last fetch. Windows 1 and 2 are of the second kind after the
first point. None of the three windows is cut at its array's edge, so a fetched block fills the buffer whole. -/

theorem before0_0 (c : Dev nD) (t : Fin cfg0.N) (d) : (dat0 V c).before 0 t d = iblk0 V c 0 t :=
  ((dat0 V c).before_in_eq_fetched 0 rfl (fun _ => rfl) (fun _ _ _ => rfl)
    (fun s => by rw [after0_0]; unfold Dat.blockOf iblk0; rw [A_eq0]) t d).trans
    (by unfold Dat.fetched Dat.blockOf iblk0; rw [A_eq0]; rfl)

theorem before0_1 (c : Dev nD) (t : Fin cfg0.N) (d) : (dat0 V c).before 1 t d = iblk0 V c 1 t :=
  ((dat0 V c).before_in_eq_fetched 1 rfl (fun _ => rfl) (fun _ _ _ => rfl)
    (fun s => by rw [after0_1]; unfold Dat.blockOf iblk0; rw [A_eq0]) t d).trans
    (by unfold Dat.fetched Dat.blockOf iblk0; rw [A_eq0]; rfl)

theorem before0_2 (c : Dev nD) (t : Fin cfg0.N) (d) : (dat0 V c).before 2 t d = iblk0 V c 2 t :=
  ((dat0 V c).before_in_eq_fetched 2 rfl (fun _ => rfl) (fun _ _ _ => rfl)
    (fun s => by rw [after0_2]; unfold Dat.blockOf iblk0; rw [A_eq0]) t d).trans
    (by unfold Dat.fetched Dat.blockOf iblk0; rw [A_eq0]; rfl)

/-! ## The output window at a point

The body's single store writes the rectangle `rX0`, which is the whole 2048 × 512 buffer: every index of the buffer
lies in it, so whatever the buffer held before, afterwards it reads the store's payload everywhere. -/

theorem cover0_3 (p : Vec F S2048x512 .bf16) (y : S2048x512.Idx) :
    ∃ pc ∈ ([⟨rX0, p⟩] : List (View.Piece (Elt F) S2048x512 .bf16)), y ∈ pc.1.set :=
  View.cover_of_tiled [⟨rX0, p⟩] S2048x512.size (by rfl) y

/-! ## The body on whole staging memrefs -/

set_option maxHeartbeats 1000000 in
/-- With X, W and the bias row in the three input memrefs and anything in the output memref, the body runs to a state
    where the inputs are as they were and the output memref reads `out0_3` of them: three whole loads, a load of
    the output memref whose value is not used, and one whole store of truncf(truncf X · truncf Wᵀ + b). -/
theorem sound_kernel0 (c : Dev nD) (E : Set ℕ) (i : grid0.Coords)
    (a1 : Memref sig .tc .vmem S2048x512 .f32) (h1 : a1.IsWhole) (a2 : Memref sig .tc .vmem S512x512 .f32) (h2 : a2.IsWhole)
    (a3 : Memref sig .tc .vmem S1x512 .f32) (h3 : a3.IsWhole) (a4 : Memref sig .tc .vmem S2048x512 .bf16) (h4 : a4.IsWhole)
    (x0 : Vec F S2048x512 .f32) (x1 : Vec F S512x512 .f32) (x2 : Vec F S1x512 .f32) (K : PUnit → sProp 𝕄) :
    iprop(owns (c : Thread nD τ) a1 fullShare x0 ∗ owns (c : Thread nD τ) a2 fullShare x1
        ∗ owns (c : Thread nD τ) a3 fullShare x2 ∗ (∃ d, owns (c : Thread nD τ) a4 fullShare d)
        ∗ (iprop(owns (c : Thread nD τ) a1 fullShare x0 ∗ owns (c : Thread nD τ) a2 fullShare x1
            ∗ owns (c : Thread nD τ) a3 fullShare x2 ∗ owns (c : Thread nD τ) a4 fullShare (out0_3 x0 x1 x2)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The body at a point of the grid -/

/-- The body at point `t`, called on the four windows' current staging memrefs: the inputs' hold their blocks, the
    output's holds anything, and the invariant and what the core owes are carried along untouched. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.Kernel.Hand

end
-- ==== Proof.Bits.Region1.lean ====
/- Region 1 of @main: the vertex-to-edge aggregation, Xtᵀ·H scaled per edge by the safe reciprocal of H's column sum; the 16384 vertices are walked in 16 blocks of 1024 per block of 2048 edges. -/
import proofs.«146423_j40303973106024_1_alg».proof.Proof.Gen.Kernel.Launch
import proofs.«146423_j40303973106024_1_alg».proof.Proof.Gen.Kernel.Skeleton
import proofs.«146423_j40303973106024_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch operands the kernel carries from point to point: whole scoped buffers of its own. -/
abbrev scM1_0 : Memref sig .tc .vmem S512x2048 .f32 := Memref.whole cc1_scratch0
abbrev scM1_1 : Memref sig .tc .vmem S1x2048 .f32 := Memref.whole cc1_scratch1

/-- THE ACCUMULATION. What the two scratch buffers (the product accumulator, the degree sum) hold after the body at
    position `n`: at the first point of a run of 16 (the inner grid axis at 0) both are reset and this point's
    addends added; at the others this point's addends are added to what the point before left. -/
def accAt1 (c : Dev nD) : (n : ℕ) → n < cfg1.N → Vec F S512x2048 .f32 × Vec F S1x2048 .f32
  | 0, hn => (k1_pay3 (iblk1 V c 0 ⟨0, hn⟩) (iblk1 V c 1 ⟨0, hn⟩) k1_pay1, k1_pay4 (iblk1 V c 0 ⟨0, hn⟩) k1_pay2)
  | n + 1, hn =>
    if (n + 1) % 16 = 0 then
      (k1_pay3 (iblk1 V c 0 ⟨n + 1, hn⟩) (iblk1 V c 1 ⟨n + 1, hn⟩) k1_pay1, k1_pay4 (iblk1 V c 0 ⟨n + 1, hn⟩) k1_pay2)
    else
      (k1_pay3 (iblk1 V c 0 ⟨n + 1, hn⟩) (iblk1 V c 1 ⟨n + 1, hn⟩) (accAt1 c n (Nat.lt_of_succ_lt hn)).1,
       k1_pay4 (iblk1 V c 0 ⟨n + 1, hn⟩) (accAt1 c n (Nat.lt_of_succ_lt hn)).2)

/-- At the first point of a run: reset, then this point's addends. -/
theorem accAt1_first (c : Dev nD) (t : Fin cfg1.N) (h : t.val % 16 = 0) :
    accAt1 V c t.val t.isLt
      = (k1_pay3 (iblk1 V c 0 t) (iblk1 V c 1 t) k1_pay1, k1_pay4 (iblk1 V c 0 t) k1_pay2) := by
  obtain ⟨n, hn⟩ := t
  cases n with
  | zero => rfl
  | succ n => exact (if_pos h).trans rfl

/-- At a later point of a run: this point's addends over what the point before left. -/
theorem accAt1_next (c : Dev nD) (t : Fin cfg1.N) (h : ¬ t.val % 16 = 0) :
    accAt1 V c t.val t.isLt
      = (k1_pay3 (iblk1 V c 0 t) (iblk1 V c 1 t) (accAt1 V c (t.val - 1) (Nat.lt_of_le_of_lt (Nat.sub_le _ _) t.isLt)).1,
         k1_pay4 (iblk1 V c 0 t) (accAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant the region carries -/

/-- The offsets of every access of the body are zero: it loads and stores whole buffers. -/
theorem hz2 : (![0, 0] : Fin 2 → Nat) = fun _ => 0 := funext fun a => by fin_cases a <;> rfl

/-- A position that starts no run has a point before it. -/
theorem pred_lt1 {n : ℕ} (h : ¬n % 16 = 0) (hn : n ≤ cfg1.N) : n - 1 < cfg1.N :=
  Nat.lt_of_lt_of_le (Nat.sub_lt (Nat.pos_of_ne_zero fun h0 => h (by subst h0; rfl)) Nat.one_pos) hn

/-- The core's scoped buffers that this call neither stages through nor accumulates in, each at some contents,
    and the generator register at some state: what the body never touches. -/
def restS1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f)
      ∗ (∃ r, prngReg c r))

/-- The plain region invariant with the two scratch buffers taken out in front, each owned whole at some contents. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ restS1 (F := F) c) := by
  unfold Pipeline.ΦA restS1; rw [scopedRest1_eq]; simp only [scM1_0, scM1_1, owns_whole]
  refine BI.equiv_iff.mp ⟨?_, ?_⟩
  · show (_ : sProp 𝕄) ⊢ _
    iintro ⟨⟨A1, A2, A3, A4, A5, A6, S0, S1, B1, B2, B3, B4, B5, B6, B7, B8⟩, G⟩
    iframe
  · show (_ : sProp 𝕄) ⊢ _
    iintro ⟨S0, S1, A1, A2, A3, A4, A5, A6, B1, B2, B3, B4, B5, B6, B7, B8, G⟩
    iframe

/-- The region invariant before position `n`. Where a run of 16 starts (the first point of the grid and the position
    after its last among them) nothing is known of the two scratch buffers: the run's first body overwrites both.
    Inside a run the product accumulator and the degree sum hold what the point before left. -/
def PhiS1 (c : Dev nD) (n : ℕ) (hn : n ≤ cfg1.N) : sProp 𝕄 :=
  if h : n % 16 = 0 then (Pipeline.ΦA spec1 c : sProp 𝕄)
  else iprop(owns (c : Thread nD τ) scM1_0 fullShare (accAt1 V c (n - 1) (pred_lt1 h hn)).1
    ∗ owns (c : Thread nD τ) scM1_1 fullShare (accAt1 V c (n - 1) (pred_lt1 h hn)).2 ∗ restS1 (F := F) c)

theorem PhiS1_start (c : Dev nD) (n : ℕ) (hn : n ≤ cfg1.N) (h : n % 16 = 0) :
    PhiS1 V c n hn = (Pipeline.ΦA spec1 c : sProp 𝕄) := dif_pos h

theorem PhiS1_mid (c : Dev nD) (n : ℕ) (hn : n ≤ cfg1.N) (h : ¬n % 16 = 0) :
    PhiS1 V c n hn = iprop(owns (c : Thread nD τ) scM1_0 fullShare (accAt1 V c (n - 1) (pred_lt1 h hn)).1
      ∗ owns (c : Thread nD τ) scM1_1 fullShare (accAt1 V c (n - 1) (pred_lt1 h hn)).2 ∗ restS1 (F := F) c) := dif_neg h

/-- Before a point inside a run: what the point before left. -/
theorem PhiS1_before (c : Dev nD) (t : Fin cfg1.N) (h : ¬t.val % 16 = 0) :
    PhiS1 V c t.val (Nat.le_of_lt t.isLt)
      = iprop(owns (c : Thread nD τ) scM1_0 fullShare (accAt1 V c (t.val - 1) (Nat.lt_of_le_of_lt (Nat.sub_le _ _) t.isLt)).1
        ∗ owns (c : Thread nD τ) scM1_1 fullShare (accAt1 V c (t.val - 1) (Nat.lt_of_le_of_lt (Nat.sub_le _ _) t.isLt)).2 ∗ restS1 (F := F) c) :=
  PhiS1_mid V c _ _ h

/-- After a point that does not end a run: what that point left. -/
theorem PhiS1_after (c : Dev nD) (t : Fin cfg1.N) (h : ¬(t.val + 1) % 16 = 0) :
    PhiS1 V c (t.val + 1) t.isLt
      = iprop(owns (c : Thread nD τ) scM1_0 fullShare (accAt1 V c t.val t.isLt).1
        ∗ owns (c : Thread nD τ) scM1_1 fullShare (accAt1 V c t.val t.isLt).2 ∗ restS1 (F := F) c) :=
  PhiS1_mid V c _ _ h
/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt1 V c t.val t.isLt).2 (accAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay5 (accAt1 V c t.val t.isLt).2 (accAt1 V c t.val t.isLt).1 := by dsimp only [dat1]

/-! ## The body's two conditionals over the grid -/

/-- The first conditional, as the body computes it from the inner coordinate: it resets the two scratch buffers. -/
abbrev cond1_0 (i : grid1.Coords) : Prop := (Scalar.cmpi .ne (Scalar.extui (Scalar.cmpi .eq (BitVec.ofNat 32 (i 1).val) 0#32)) 0#32) = 1#1
/-- It holds exactly at the first point of each run of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional: it stores the scaled result into the output block. -/
abbrev cond1_1 (i : grid1.Coords) : Prop := k1_cond2 i = 1#1
/-- It holds exactly at the last point of each run of 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## The body on whole buffers, one control case at a time

In each case the two input blocks `x0` (a 1024 × 2048 block of H) and `x1` (the matching 1024 × 512 block of Xt) are
read and left as they were; the product accumulator ends at `k1_pay3 x0 x1 a` and the degree sum at `k1_pay4 x0 d`,
where `a`, `d` are what the two buffers held when the accumulation began: the stored zeros at a run's first point,
what the point before left at the others. Every store and load is of a whole buffer, so each buffer reads back as the
payload of its last store, and a load after a store reads that store's payload. -/

set_option maxHeartbeats 1000000 in
/-- First point of a run: both scratch buffers, at anything, are reset and accumulated into; the output block is not touched. -/
theorem run1_A (c : Dev nD) (i : grid1.Coords)
    (arg2 : Memref sig .tc .vmem S1024x2048 .f32) (harg2 : arg2.IsWhole) (arg3 : Memref sig .tc .vmem S1024x512 .bf16) (harg3 : arg3.IsWhole)
    (arg4 : Memref sig .tc .vmem S512x2048 .bf16) (harg4 : arg4.IsWhole) (arg5 : Memref sig .tc .vmem S512x2048 .f32) (harg5 : arg5.IsWhole)
    (arg6 : Memref sig .tc .vmem S1x2048 .f32) (harg6 : arg6.IsWhole) (hc0 : cond1_0 i) (hc1 : ¬cond1_1 i)
    (x0 : Vec F S1024x2048 .f32) (x1 : Vec F S1024x512 .bf16) (xi2 : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k1_pay3 x0 x1 k1_pay1) ∗ owns (c : Thread nD τ) arg6 fullShare (k1_pay4 x0 k1_pay2)) -∗ K ⟨⟩))
      ⊢ wp frame (wpE (defs₀ (F := F)) Variants.none c none) E (cc1__v2e_kernel i arg2 harg2 arg3 harg3 arg4 harg4 arg5 harg5 arg6 harg6) K := by
  simp only [cc1__v2e_kernel_eq_skeleton]; unfold cc1__v2e_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread,
      View.ld_unit_zero (S := S1024x2048) hz2, View.ld_unit_zero (S := S1024x512) hz2,
      View.readCov_unit_zero (S := S512x2048) _ hz2, View.readCov_unit_zero (S := S1x2048) _ hz2]
  · iexists _; isplitr
    swap; · iexact HS1
    ipureintro
    try sl_unfold_words
    rw [View.read_writes_eq_canon _ _ _ (fun y => ⟨_, List.mem_cons_self, View.mem_set_unit_zero hz2 inb_S1x2048_S1x2048_0_0 y⟩), View.canon_cons_unit_zero (S := S1x2048) hz2]
    simp only [View.readAt_eq_ld, harg2.read_unread, harg3.read_unread,
      View.ld_unit_zero (S := S1024x2048) hz2, View.ld_unit_zero (S := S1024x512) hz2,
      View.readCov_unit_zero (S := S512x2048) _ hz2, View.readCov_unit_zero (S := S1x2048) _ hz2]

set_option maxHeartbeats 1000000 in
/-- A middle point of a run: the two scratch buffers, at `xs0` and `xs1`, are accumulated into; the output block is not touched. -/
theorem run1_B (c : Dev nD) (i : grid1.Coords)
    (arg2 : Memref sig .tc .vmem S1024x2048 .f32) (harg2 : arg2.IsWhole) (arg3 : Memref sig .tc .vmem S1024x512 .bf16) (harg3 : arg3.IsWhole)
    (arg4 : Memref sig .tc .vmem S512x2048 .bf16) (harg4 : arg4.IsWhole) (arg5 : Memref sig .tc .vmem S512x2048 .f32) (harg5 : arg5.IsWhole)
    (arg6 : Memref sig .tc .vmem S1x2048 .f32) (harg6 : arg6.IsWhole) (hc0 : ¬cond1_0 i) (hc1 : ¬cond1_1 i)
    (x0 : Vec F S1024x2048 .f32) (x1 : Vec F S1024x512 .bf16) (xi2 : Vec F S512x2048 .bf16)
    (xs0 : Vec F S512x2048 .f32) (xs1 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare (k1_pay3 x0 x1 xs0) ∗ owns (c : Thread nD τ) arg6 fullShare (k1_pay4 x0 xs1)) -∗ K ⟨⟩))
      ⊢ wp frame (wpE (defs₀ (F := F)) Variants.none c none) E (cc1__v2e_kernel i arg2 harg2 arg3 harg3 arg4 harg4 arg5 harg5 arg6 harg6) K := by
  simp only [cc1__v2e_kernel_eq_skeleton]; unfold cc1__v2e_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]
  · iexists _; isplitr
    swap; · iexact HS1
    ipureintro
    try sl_unfold_words
    rw [View.read_writes_eq_canon _ _ _ (fun y => ⟨_, List.mem_cons_self, View.mem_set_unit_zero hz2 inb_S1x2048_S1x2048_0_0 y⟩), View.canon_cons_unit_zero (S := S1x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]

set_option maxHeartbeats 1000000 in
/-- Last point of a run: the two scratch buffers are accumulated into, and the output block, at anything, is stored
    whole with the accumulated product scaled by the safe reciprocal of the accumulated degree. -/
theorem run1_C (c : Dev nD) (i : grid1.Coords)
    (arg2 : Memref sig .tc .vmem S1024x2048 .f32) (harg2 : arg2.IsWhole) (arg3 : Memref sig .tc .vmem S1024x512 .bf16) (harg3 : arg3.IsWhole)
    (arg4 : Memref sig .tc .vmem S512x2048 .bf16) (harg4 : arg4.IsWhole) (arg5 : Memref sig .tc .vmem S512x2048 .f32) (harg5 : arg5.IsWhole)
    (arg6 : Memref sig .tc .vmem S1x2048 .f32) (harg6 : arg6.IsWhole) (hc0 : ¬cond1_0 i) (hc1 : cond1_1 i)
    (x0 : Vec F S1024x2048 .f32) (x1 : Vec F S1024x512 .bf16)
    (xs0 : Vec F S512x2048 .f32) (xs1 : Vec F S1x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k1_pay5 (k1_pay4 x0 xs1) (k1_pay3 x0 x1 xs0))
            ∗ owns (c : Thread nD τ) arg5 fullShare (k1_pay3 x0 x1 xs0) ∗ owns (c : Thread nD τ) arg6 fullShare (k1_pay4 x0 xs1)) -∗ K ⟨⟩))
      ⊢ wp frame (wpE (defs₀ (F := F)) Variants.none c none) E (cc1__v2e_kernel i arg2 harg2 arg3 harg3 arg4 harg4 arg5 harg5 arg6 harg6) K := by
  simp only [cc1__v2e_kernel_eq_skeleton]; unfold cc1__v2e_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]
  isplitl [HS0]
  · iexists _; isplitr
    swap; · iexact HS0
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]
  · iexists _; isplitr
    swap; · iexact HS1
    ipureintro
    try sl_unfold_words
    rw [View.read_writes_eq_canon _ _ _ (fun y => ⟨_, List.mem_cons_self, View.mem_set_unit_zero hz2 inb_S1x2048_S1x2048_0_0 y⟩), View.canon_cons_unit_zero (S := S1x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]

/-! ## Where the windows are live -/

/-- The two inputs are staged at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output block is stored at a run's last point only: elsewhere the body leaves it alone, -/
theorem idleAt1_2 : ∀ t : Fin cfg1.N, ¬t.val % 16 = 15 → cfg1.idle 2 (grid1.coords t) = true := by decide +kernel
theorem liveAt1_2 : ∀ t : Fin cfg1.N, t.val % 16 = 15 → cfg1.idle 2 (grid1.coords t) = false := by decide +kernel
/-- and the pipeline does not write it back there. -/
theorem noFlush1_2 (t : Fin cfg1.N) (h : ¬t.val % 16 = 15) : (cfg1.win 2).flush t = false :=
  Bool.eq_false_iff.mpr fun hf => h ((flush1_2 t).mp hf)

/-! ## The inputs' staging buffers hold their blocks -/

/-- An input's current staging buffer holds the window's block at the point, fetched there or not: where it is not
    fetched the block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The invariant at a point's start, restated at the point's position. -/
theorem Phi1_castSucc (c : Dev nD) (t : Fin cfg1.N) :
    (dat1 V c).Φ t.castSucc = PhiS1 V c t.val (Nat.le_of_lt t.isLt) := by
  dsimp only [dat1]; simp only [Fin.coe_castSucc]

/-! ## The body obligation at a point -/

/-- What the body is handed at point `t`: the invariant, what the core owes, and the three windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point. The point's position in its run of 16 selects the control case. At a first point the
    plain invariant yields the two scratch buffers at anything and takes them back at the reset-and-add contents;
    at a middle point they come at what the point before left and go back one addend further; at a last point they
    come likewise, the output block is stored from the NEW contents, and since the next position starts a run their
    contents are forgotten again. Where the output block is not stored the window is idle and handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h0 : t.val % 16 = 0
  · -- the first point of a run
    have h15 : ¬t.val % 16 = 15 := by omega
    have hs : ¬(t.val + 1) % 16 = 0 := by omega
    rw [Dat.leavesExact_idle (dat1 V c) 2 t (idleAt1_2 t h15) (noFlush1_2 t h15)]
    rw [PhiS1_start V c _ _ h0, PhiA1_eq, PhiS1_after V c t hs, accAt1_first V c t h0]
    dsimp only
    iintro ⟨⟨HS0, HS1, HR⟩, Ho, ⟨%d0, H0⟩, ⟨%d1, H1⟩, ⟨%d2, H2⟩⟩
    iapply (run1_A c (grid1.coords t) _ _ _ _ _ _ _ _ _ _ ((hcond1_0 t).mpr h0) (fun h => h15 ((hcond1_1 t).mp h)) (iblk1 V c 0 t) (iblk1 V c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    iexists _; iexact H2
  · by_cases h15 : t.val % 16 = 15
    · -- the last point of a run
      have hs : (t.val + 1) % 16 = 0 := by omega
      rw [show (dat1 V c).leavesExact 2 t = owns (c : Thread nD τ) (st1_2 t) fullShare ((dat1 V c).after 2 t) from by
        unfold Dat.leavesExact; rw [liveAt1_2 t h15], after1_2]
      rw [PhiS1_before V c t h0, PhiS1_start V c _ _ hs, PhiA1_eq, accAt1_next V c t h0]
      dsimp only
      iintro ⟨⟨HS0, HS1, HR⟩, Ho, ⟨%d0, H0⟩, ⟨%d1, H1⟩, ⟨%d2, H2⟩⟩
      iapply (run1_C c (grid1.coords t) _ _ _ _ _ _ _ _ _ _ (fun h => h0 ((hcond1_0 t).mp h)) ((hcond1_1 t).mpr h15) (iblk1 V c 0 t) (iblk1 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR]
      · isplitl [HS0]; · iexists _; iexact HS0
        isplitl [HS1]; · iexists _; iexact HS1
        iexact HR
      isplitl [Ho]; · iexact Ho
      isplitl [H0]; · iexact H0
      isplitl [H1]; · iexact H1
      iexact H2
    · -- a middle point of a run
      have hs : ¬(t.val + 1) % 16 = 0 := by omega
      rw [Dat.leavesExact_idle (dat1 V c) 2 t (idleAt1_2 t h15) (noFlush1_2 t h15)]
      rw [PhiS1_before V c t h0, PhiS1_after V c t hs, accAt1_next V c t h0]
      dsimp only
      iintro ⟨⟨HS0, HS1, HR⟩, Ho, ⟨%d0, H0⟩, ⟨%d1, H1⟩, ⟨%d2, H2⟩⟩
      iapply (run1_B c (grid1.coords t) _ _ _ _ _ _ _ _ _ _ (fun h => h0 ((hcond1_0 t).mp h)) (fun h => h15 ((hcond1_1 t).mp h)) (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_start V c 0 _ rfl]

/-- After the last point the invariant gives it back. -/
theorem hout1 (c : Dev nD) : (dat1 V c).Φ (Fin.last cfg1.N) ⊢ (Pipeline.ΦA spec1 c : sProp 𝕄) := by
  rw [show (dat1 V c).Φ (Fin.last cfg1.N) = PhiS1 V c cfg1.N (Nat.le_refl _) from rfl,
    PhiS1_start V c _ _ (show cfg1.N % 16 = 0 by rw [show cfg1.N = 64 from N_1])]

end Cert.Kernel.Hand

end
-- ==== Proof.Bits.Region2.lean ====
/- Region 2 of @main: the edge-to-vertex aggregation, H·Xe scaled per vertex by the safe reciprocal of H's row sum and clamped at zero; the 8192 edges are walked in 4 blocks of 2048 per block of 1024 vertices. -/
import proofs.«146423_j40303973106024_1_alg».proof.Proof.Gen.Kernel.Launch
import proofs.«146423_j40303973106024_1_alg».proof.Proof.Gen.Kernel.Skeleton
import proofs.«146423_j40303973106024_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch operands the kernel carries from point to point: whole scoped buffers of its own. -/
abbrev scM2_0 : Memref sig .tc .vmem S1024x512 .f32 := Memref.whole cc2_scratch0
abbrev scM2_1 : Memref sig .tc .vmem S1024x1 .f32 := Memref.whole cc2_scratch1

/-- THE ACCUMULATION. What the two scratch buffers (the product accumulator, the degree sum) hold after the body at
    position `n`: at the first point of a run of 4 (the inner grid axis at 0) both are reset and this point's
    addends added; at the others this point's addends are added to what the point before left. -/
def accAt2 (c : Dev nD) : (n : ℕ) → n < cfg2.N → Vec F S1024x512 .f32 × Vec F S1024x1 .f32
  | 0, hn => (k2_pay3 (iblk2 V c 0 ⟨0, hn⟩) (iblk2 V c 1 ⟨0, hn⟩) k2_pay1, k2_pay4 (iblk2 V c 0 ⟨0, hn⟩) k2_pay2)
  | n + 1, hn =>
    if (n + 1) % 4 = 0 then
      (k2_pay3 (iblk2 V c 0 ⟨n + 1, hn⟩) (iblk2 V c 1 ⟨n + 1, hn⟩) k2_pay1, k2_pay4 (iblk2 V c 0 ⟨n + 1, hn⟩) k2_pay2)
    else
      (k2_pay3 (iblk2 V c 0 ⟨n + 1, hn⟩) (iblk2 V c 1 ⟨n + 1, hn⟩) (accAt2 c n (Nat.lt_of_succ_lt hn)).1,
       k2_pay4 (iblk2 V c 0 ⟨n + 1, hn⟩) (accAt2 c n (Nat.lt_of_succ_lt hn)).2)

/-- At the first point of a run: reset, then this point's addends. -/
theorem accAt2_first (c : Dev nD) (t : Fin cfg2.N) (h : t.val % 4 = 0) :
    accAt2 V c t.val t.isLt
      = (k2_pay3 (iblk2 V c 0 t) (iblk2 V c 1 t) k2_pay1, k2_pay4 (iblk2 V c 0 t) k2_pay2) := by
  obtain ⟨n, hn⟩ := t
  cases n with
  | zero => rfl
  | succ n => exact (if_pos h).trans rfl

/-- At a later point of a run: this point's addends over what the point before left. -/
theorem accAt2_next (c : Dev nD) (t : Fin cfg2.N) (h : ¬ t.val % 4 = 0) :
    accAt2 V c t.val t.isLt
      = (k2_pay3 (iblk2 V c 0 t) (iblk2 V c 1 t) (accAt2 V c (t.val - 1) (Nat.lt_of_le_of_lt (Nat.sub_le _ _) t.isLt)).1,
         k2_pay4 (iblk2 V c 0 t) (accAt2 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The body's two conditionals, over the grid -/

/-- The first conditional of the body: the inner grid coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: the inner grid coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Off a run's last point the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At a run's last point it is live. -/
theorem liveAt2_2 : ∀ t : Fin cfg2.N, cond2_1 (grid2.coords t) → cfg2.idle 2 (grid2.coords t) = false := by decide +kernel

/-- Each window's current staging memref at point `t`, and its wholeness. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)

/-! ## The body's triple, one per control case -/

/-- The whole-buffer rectangle's offsets are zero. -/
theorem hzR2 : (![0, 0] : Fin 2 → Nat) = fun _ => 0 := funext fun a => by fin_cases a <;> rfl

set_option maxHeartbeats 1000000 in
/-- The body at a run's first point (first conditional taken, second not), on whole memrefs: the inputs at their blocks,
    the output window at contents handed back untouched, the two scratch buffers at anything. Both scratch buffers
    are zeroed and read back, so they end at this block's product over zero and this block's row sums over zero. -/
theorem run2_A (c : Dev nD) (i : grid2.Coords) (arg2 : Memref sig .tc .vmem S1024x2048 .f32) (harg2 : arg2.IsWhole) (arg3 : Memref sig .tc .vmem S512x2048 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole)
    (hc0 : cond2_0 i) (hc1 : ¬cond2_1 i)
    (x0 : Vec F S1024x2048 .f32) (x1 : Vec F S512x2048 .bf16) (xi2 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k2_pay3 x0 x1 k2_pay1) ∗ owns (c : Thread nD τ) arg6 fullShare (k2_pay4 x0 k2_pay2)) -∗ K ⟨⟩))
      ⊢ wp frame (wpE (defs₀ (F := F)) Variants.none c none) E (cc2__e2v_kernel i arg2 harg2 arg3 harg3 arg4 harg4 arg5 harg5 arg6 harg6) K := by
  simp only [cc2__e2v_kernel_eq_skeleton]; unfold cc2__e2v_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_cons_self, View.mem_set_unit_zero hzR2 inb_S1024x512_S1024x512_0_0 y⟩)]
    sl_unfold_words
    rw [View.canon_cons_unit_zero (S := S1024x512) hzR2]
    simp only [View.readAt_eq_ld, harg2.read_unread, harg3.read_unread, View.ld_unit_zero (S := S1024x2048) hzR2, View.ld_unit_zero (S := S512x2048) hzR2, View.readCov_unit_zero (S := S1024x512) _ hzR2]
  · iexists _; isplitr
    swap; · iexact HS1
    ipureintro
    rw [View.read_writes_eq_canon _ _ _ (fun y => ⟨_, List.mem_cons_self, View.mem_set_unit_zero hzR2 inb_S1024x1_S1024x1_0_0 y⟩)]
    sl_unfold_words
    rw [View.canon_cons_unit_zero (S := S1024x1) hzR2]
    simp only [View.readAt_eq_ld, harg2.read_unread, harg3.read_unread, View.ld_unit_zero (S := S1024x2048) hzR2, View.ld_unit_zero (S := S512x2048) hzR2, View.readCov_unit_zero (S := S1024x1) _ hzR2]

set_option maxHeartbeats 1000000 in
/-- The body at a point inside a run (neither conditional taken): the output window handed back untouched, the two
    scratch buffers at what the point before left (`xs0`, `xs1`) end at this block's product and row sums added to them. -/
theorem run2_B (c : Dev nD) (i : grid2.Coords) (arg2 : Memref sig .tc .vmem S1024x2048 .f32) (harg2 : arg2.IsWhole) (arg3 : Memref sig .tc .vmem S512x2048 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole)
    (hc0 : ¬cond2_0 i) (hc1 : ¬cond2_1 i)
    (x0 : Vec F S1024x2048 .f32) (x1 : Vec F S512x2048 .bf16) (xi2 : Vec F S1024x512 .f32)
    (xs0 : Vec F S1024x512 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare (k2_pay3 x0 x1 xs0) ∗ owns (c : Thread nD τ) arg6 fullShare (k2_pay4 x0 xs1)) -∗ K ⟨⟩))
      ⊢ wp frame (wpE (defs₀ (F := F)) Variants.none c none) E (cc2__e2v_kernel i arg2 harg2 arg3 harg3 arg4 harg4 arg5 harg5 arg6 harg6) K := by
  simp only [cc2__e2v_kernel_eq_skeleton]; unfold cc2__e2v_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_cons_self, View.mem_set_unit_zero hzR2 inb_S1024x512_S1024x512_0_0 y⟩)]
    sl_unfold_words
    rw [View.canon_cons_unit_zero (S := S1024x512) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]
  · iexists _; isplitr
    swap; · iexact HS1
    ipureintro
    rw [View.read_writes_eq_canon _ _ _ (fun y => ⟨_, List.mem_cons_self, View.mem_set_unit_zero hzR2 inb_S1024x1_S1024x1_0_0 y⟩)]
    sl_unfold_words
    rw [View.canon_cons_unit_zero (S := S1024x1) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]

set_option maxHeartbeats 1000000 in
/-- The body at a run's last point (second conditional taken, first not): the scratch buffers are updated as inside
    a run, then the output window receives the scaled and clamped quotient of the NEW accumulator by the NEW degree sum. -/
theorem run2_C (c : Dev nD) (i : grid2.Coords) (arg2 : Memref sig .tc .vmem S1024x2048 .f32) (harg2 : arg2.IsWhole) (arg3 : Memref sig .tc .vmem S512x2048 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole)
    (hc0 : ¬cond2_0 i) (hc1 : cond2_1 i)
    (x0 : Vec F S1024x2048 .f32) (x1 : Vec F S512x2048 .bf16)
    (xs0 : Vec F S1024x512 .f32) (xs1 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k2_pay5 (k2_pay4 x0 xs1) (k2_pay3 x0 x1 xs0))
            ∗ owns (c : Thread nD τ) arg5 fullShare (k2_pay3 x0 x1 xs0) ∗ owns (c : Thread nD τ) arg6 fullShare (k2_pay4 x0 xs1)) -∗ K ⟨⟩))
      ⊢ wp frame (wpE (defs₀ (F := F)) Variants.none c none) E (cc2__e2v_kernel i arg2 harg2 arg3 harg3 arg4 harg4 arg5 harg5 arg6 harg6) K := by
  simp only [cc2__e2v_kernel_eq_skeleton]; unfold cc2__e2v_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero hzR2 inb_S1024x512_S1024x512_0_0 y⟩)]
    rw [View.canon_cons_unit_zero (S := S1024x512) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]
  isplitl [HS0]
  · iexists _; isplitr
    swap; · iexact HS0
    ipureintro
    sl_unfold_words
    rw [View.read_writes_eq_canon _ _ _ (fun y => ⟨_, List.mem_cons_self, View.mem_set_unit_zero hzR2 inb_S1024x512_S1024x512_0_0 y⟩)]
    rw [View.canon_cons_unit_zero (S := S1024x512) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]
  · iexists _; isplitr
    swap; · iexact HS1
    ipureintro
    sl_unfold_words
    rw [View.read_writes_eq_canon _ _ _ (fun y => ⟨_, List.mem_cons_self, View.mem_set_unit_zero hzR2 inb_S1024x1_S1024x1_0_0 y⟩)]
    rw [View.canon_cons_unit_zero (S := S1024x1) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]

/-! ## The region invariant -/

/-- The scoped buffers of the core that are neither staging buffers of this region nor its two scratch buffers,
    each at some contents. -/
def rest2 (c : Dev nD) : sProp 𝕄 :=
  Pipeline.scopedRestBut (Ix := Unit) (Name := ℕ) (U := UR sig nD τ) (Lvl := ℕ) (Val := Elt F) spec2 c [cc2_scratch0, cc2_scratch1]

/-- The invariant with the two scratch buffers named at contents `a`, `b`. -/
def named2 (c : Dev nD) (a : Vec F S1024x512 .f32) (b : Vec F S1024x1 .f32) : sProp 𝕄 :=
  iprop(((owns (c : Thread nD τ) scM2_0 fullShare a ∗ owns (c : Thread nD τ) scM2_1 fullShare b) ∗ rest2 c) ∗ (∃ r, prngReg c r))

/-- The class's invariant with the two scratch buffers split off the scoped rest, each at some contents. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d)) ∗ rest2 c) ∗ (∃ r, prngReg c r)) := by
  unfold Pipeline.ΦA rest2
  rw [Pipeline.scopedRest_split_of_list spec2 c [cc2_scratch0, cc2_scratch1] (by decide) (by decide)]
  simp only [scM2_0, scM2_1, owns_whole, bigSepL]
  try rfl

/-- The region invariant before position `n`: where a run of 4 starts, every scoped buffer no window stages at some
    contents and the generator register at some state; inside a run the same with the two carried scratch buffers
    at what the point before left in them. -/
def PhiS2 (c : Dev nD) : (n : ℕ) → n ≤ cfg2.N → sProp 𝕄
  | 0, _ => Pipeline.ΦA spec2 c
  | n + 1, hn =>
    if (n + 1) % 4 = 0 then Pipeline.ΦA spec2 c
    else named2 c (accAt2 V c n hn).1 (accAt2 V c n hn).2

theorem PhiS2_start (c : Dev nD) (n : ℕ) (hn : n ≤ cfg2.N) (h : n % 4 = 0) : PhiS2 V c n hn = Pipeline.ΦA spec2 c := by
  cases n with
  | zero => rfl
  | succ n => exact if_pos h

theorem PhiS2_succ (c : Dev nD) (n : ℕ) (hn : n < cfg2.N) (h : ¬ (n + 1) % 4 = 0) :
    PhiS2 V c (n + 1) hn = named2 c (accAt2 V c n hn).1 (accAt2 V c n hn).2 := if_neg h

theorem PhiS2_pos (c : Dev nD) (n : ℕ) (hn : n ≤ cfg2.N) (h : ¬ n % 4 = 0) :
    PhiS2 V c n hn = named2 c (accAt2 V c (n - 1) (by omega)).1 (accAt2 V c (n - 1) (by omega)).2 := by
  cases n with
  | zero => exact absurd (Nat.zero_mod _) h
  | succ n => exact if_neg h

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay5 (accAt2 V c t.val t.isLt).2 (accAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay5 (accAt2 V c t.val t.isLt).2 (accAt2 V c t.val t.isLt).1 := by dsimp only [dat2]

/-! ## The body obligation -/

theorem PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the three control cases. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h0 : t.val % 4 = 0
  · -- a run's first point
    have h1 : ¬ t.val % 4 = 3 := by omega
    have hs : ¬ (t.val + 1) % 4 = 0 := by omega
    have hc1 : ¬cond2_1 (grid2.coords t) := fun h => h1 ((hcond2_1 t).mp h)
    rw [Dat.leavesExact_idle (dat2 V c) 2 t (idleAt2_2 t hc1) (noFlush2_2 t hc1)]
    rw [PhiS2_start V c _ _ h0, PhiA2_eq, PhiS2_succ V c _ _ hs, accAt2_first V c t h0]
    unfold named2; dsimp only
    iintro ⟨⟨⟨⟨HS0, HS1⟩, HR⟩, Hg⟩, Ho, ⟨%d0, H0⟩, ⟨%d1, H1⟩, ⟨%d2, H2⟩⟩
    iapply (run2_A c (grid2.coords t) _ (hs2_0 t) _ (hs2_1 t) _ (hs2_2 t) _ (Memref.isWhole_whole _) _ (Memref.isWhole_whole _)
      ((hcond2_0 t).mpr h0) hc1 (iblk2 V c 0 t) (iblk2 V c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    by_cases h1 : t.val % 4 = 3
    · -- a run's last point
      have hs : (t.val + 1) % 4 = 0 := by omega
      have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [PhiS2_pos V c _ _ h0, PhiS2_start V c _ _ hs, PhiA2_eq, accAt2_next V c t h0]
      unfold named2; dsimp only
      iintro ⟨⟨⟨⟨HS0, HS1⟩, HR⟩, Hg⟩, Ho, ⟨%d0, H0⟩, ⟨%d1, H1⟩, ⟨%d2, H2⟩⟩
      iapply (run2_C c (grid2.coords t) _ (hs2_0 t) _ (hs2_1 t) _ (hs2_2 t) _ (Memref.isWhole_whole _) _ (Memref.isWhole_whole _)
        hc0 hc1 (iblk2 V c 0 t) (iblk2 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexists _; iexact HS0
            iexists _; iexact HS1
          iexact HR
        iexact Hg
      isplitl [Ho]; · iexact Ho
      isplitl [H0]; · iexact H0
      isplitl [H1]; · iexact H1
      iexact H2
    · -- a point inside a run
      have hs : ¬ (t.val + 1) % 4 = 0 := by omega
      have hc1 : ¬cond2_1 (grid2.coords t) := fun h => h1 ((hcond2_1 t).mp h)
      rw [Dat.leavesExact_idle (dat2 V c) 2 t (idleAt2_2 t hc1) (noFlush2_2 t hc1)]
      rw [PhiS2_pos V c _ _ h0, PhiS2_succ V c _ _ hs, accAt2_next V c t h0]
      unfold named2; dsimp only
      iintro ⟨⟨⟨⟨HS0, HS1⟩, HR⟩, Hg⟩, Ho, ⟨%d0, H0⟩, ⟨%d1, H1⟩, ⟨%d2, H2⟩⟩
      iapply (run2_B c (grid2.coords t) _ (hs2_0 t) _ (hs2_1 t) _ (hs2_2 t) _ (Memref.isWhole_whole _) _ (Memref.isWhole_whole _)
        hc0 hc1 (iblk2 V c 0 t) (iblk2 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_start V c 0 _ rfl]
  try exact Idealize.SL.BI.Entails.refl _

/-- After the last point the invariant gives it back. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_start V c _ _ (by rw [Fin.val_last]; have : cfg2.N = 64 := N_2; omega)]
  try exact Idealize.SL.BI.Entails.refl _

end Cert.Kernel.Hand

end
-- ==== Proof.Bits.Run.lean ====
/- The run of @main: one stretch of host operations, then the three kernel regions one after the other. The
   unscoped buffers' contents at each boundary are a fold from the launch memory; each region is entered from the
   contents the item before it left and leaves its arrays at what its write-backs fold to. -/
import proofs.«146423_j40303973106024_1_alg».proof.Proof.Bits.Region0
import proofs.«146423_j40303973106024_1_alg».proof.Proof.Bits.Region1
import proofs.«146423_j40303973106024_1_alg».proof.Proof.Bits.Region2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- `main_arg0` reaches the end as launched: a region reads it through an input window or bypasses it, and the host
    stretch does not write it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

/-- `main_arg1` reaches the end as launched: a region reads it through an input window or bypasses it, and the host
    stretch does not write it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl

/-- `main_arg2` reaches the end as launched: a region reads it through an input window or bypasses it, and the host
    stretch does not write it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

/-- `main_arg3` reaches the end as launched: a region reads it through an input window or bypasses it, and the host
    stretch does not write it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl

/-- The result array at the end is what region 2's write-backs fold to. -/
theorem W4_main_v3 (c : Dev nD) : W4 m ρ c (Proc.devRef .tc main_v3) = (dat2 (V3 m ρ) c).arrAt 2 cfg2.N :=
  W4_arr m ρ c 2

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left with them at `W2`. Its arrays
    are split out of the unscoped buffers at entry and put back at their final contents at exit; the scoped rest and the
    generator register go into the kernel's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers at entry and put back at their final contents at exit; the scoped rest and the
    generator register go into the kernel's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`. Its arrays
    are split out of the unscoped buffers at entry and put back at their final contents at exit; the scoped rest and the
    generator register go into the kernel's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result array named: what region 2's write-backs fold to, the arguments as launched. -/
theorem run_value : θ_run defs (onTc (τ := τ) (main (F := F))) ⟨m, fun _ => 0, ρ⟩ (fun r => ∀ c : Dev nD,
      r.2.mem ((c.tc : Thread nD τ).loc main_v3) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.Ideal.Region0.lean ====
/- Region 0 of @main: the linear layer X·Wᵀ + b, one block of 2048 rows per grid point. -/
import proofs.«146423_j40303973106024_1_alg».proof.Proof.Gen.KernelIdeal.Launch
import proofs.«146423_j40303973106024_1_alg».proof.Proof.Gen.KernelIdeal.Skeleton
import proofs.«146423_j40303973106024_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2048x512 := Rect.unit (s := S2048x512) ![0, 0] S2048x512.size inb_S2048x512_S2048x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- What the body leaves in the output window's buffer: its one store over the three input blocks. -/
def out0_3 (x0 : Vec F S2048x512 .f32) (x1 : Vec F S512x512 .f32) (x2 : Vec F S1x512 .f32) : Vec F S2048x512 .bf16 :=
  View.canon [⟨rX0, k0_pay1 (View.ld x0 rX0) (View.ld x1 rW0) (View.ld x2 rB0)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## The input windows at a point

An input window's body leaves its block where it found it, so at every point its current staging buffer reads the
window's block there: at a point where the pipeline fetched it that is what the fetch brought, and at a point where
it did not the block index has not moved since the last fetch. Windows 1 and 2 are of the second kind after the
first point. None of the three windows is cut at its array's edge, so a fetched block fills the buffer whole. -/

theorem before0_0 (c : Dev nD) (t : Fin cfg0.N) (d) : (dat0 V c).before 0 t d = iblk0 V c 0 t :=
  ((dat0 V c).before_in_eq_fetched 0 rfl (fun _ => rfl) (fun _ _ _ => rfl)
    (fun s => by rw [after0_0]; unfold Dat.blockOf iblk0; rw [A_eq0]) t d).trans
    (by unfold Dat.fetched Dat.blockOf iblk0; rw [A_eq0]; rfl)

theorem before0_1 (c : Dev nD) (t : Fin cfg0.N) (d) : (dat0 V c).before 1 t d = iblk0 V c 1 t :=
  ((dat0 V c).before_in_eq_fetched 1 rfl (fun _ => rfl) (fun _ _ _ => rfl)
    (fun s => by rw [after0_1]; unfold Dat.blockOf iblk0; rw [A_eq0]) t d).trans
    (by unfold Dat.fetched Dat.blockOf iblk0; rw [A_eq0]; rfl)

theorem before0_2 (c : Dev nD) (t : Fin cfg0.N) (d) : (dat0 V c).before 2 t d = iblk0 V c 2 t :=
  ((dat0 V c).before_in_eq_fetched 2 rfl (fun _ => rfl) (fun _ _ _ => rfl)
    (fun s => by rw [after0_2]; unfold Dat.blockOf iblk0; rw [A_eq0]) t d).trans
    (by unfold Dat.fetched Dat.blockOf iblk0; rw [A_eq0]; rfl)

/-! ## The output window at a point

The body's single store writes the rectangle `rX0`, which is the whole 2048 × 512 buffer: every index of the buffer
lies in it, so whatever the buffer held before, afterwards it reads the store's payload everywhere. -/

theorem cover0_3 (p : Vec F S2048x512 .bf16) (y : S2048x512.Idx) :
    ∃ pc ∈ ([⟨rX0, p⟩] : List (View.Piece (Elt F) S2048x512 .bf16)), y ∈ pc.1.set :=
  View.cover_of_tiled [⟨rX0, p⟩] S2048x512.size (by rfl) y

/-! ## The body on whole staging memrefs -/

set_option maxHeartbeats 1000000 in
/-- With X, W and the bias row in the three input memrefs and anything in the output memref, the body runs to a state
    where the inputs are as they were and the output memref reads `out0_3` of them: three whole loads, a load of
    the output memref whose value is not used, and one whole store of truncf(truncf X · truncf Wᵀ + b). -/
theorem sound_kernel0 (c : Dev nD) (E : Set ℕ) (i : grid0.Coords)
    (a1 : Memref sig .tc .vmem S2048x512 .f32) (h1 : a1.IsWhole) (a2 : Memref sig .tc .vmem S512x512 .f32) (h2 : a2.IsWhole)
    (a3 : Memref sig .tc .vmem S1x512 .f32) (h3 : a3.IsWhole) (a4 : Memref sig .tc .vmem S2048x512 .bf16) (h4 : a4.IsWhole)
    (x0 : Vec F S2048x512 .f32) (x1 : Vec F S512x512 .f32) (x2 : Vec F S1x512 .f32) (K : PUnit → sProp 𝕄) :
    iprop(owns (c : Thread nD τ) a1 fullShare x0 ∗ owns (c : Thread nD τ) a2 fullShare x1
        ∗ owns (c : Thread nD τ) a3 fullShare x2 ∗ (∃ d, owns (c : Thread nD τ) a4 fullShare d)
        ∗ (iprop(owns (c : Thread nD τ) a1 fullShare x0 ∗ owns (c : Thread nD τ) a2 fullShare x1
            ∗ owns (c : Thread nD τ) a3 fullShare x2 ∗ owns (c : Thread nD τ) a4 fullShare (out0_3 x0 x1 x2)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_3 _)

/-! ## The body at a point of the grid -/

/-- The body at point `t`, called on the four windows' current staging memrefs: the inputs' hold their blocks, the
    output's holds anything, and the invariant and what the core owes are carried along untouched. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl

end Cert.KernelIdeal.Hand

end
-- ==== Proof.Ideal.Region1.lean ====
/- Region 1 of @main: the vertex-to-edge aggregation, Xtᵀ·H scaled per edge by the safe reciprocal of H's column sum; the 16384 vertices are walked in 16 blocks of 1024 per block of 2048 edges. -/
import proofs.«146423_j40303973106024_1_alg».proof.Proof.Gen.KernelIdeal.Launch
import proofs.«146423_j40303973106024_1_alg».proof.Proof.Gen.KernelIdeal.Skeleton
import proofs.«146423_j40303973106024_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch operands the kernel carries from point to point: whole scoped buffers of its own. -/
abbrev scM1_0 : Memref sig .tc .vmem S512x2048 .f32 := Memref.whole cc1_scratch0
abbrev scM1_1 : Memref sig .tc .vmem S1x2048 .f32 := Memref.whole cc1_scratch1

/-- THE ACCUMULATION. What the two scratch buffers (the product accumulator, the degree sum) hold after the body at
    position `n`: at the first point of a run of 16 (the inner grid axis at 0) both are reset and this point's
    addends added; at the others this point's addends are added to what the point before left. -/
def accAt1 (c : Dev nD) : (n : ℕ) → n < cfg1.N → Vec F S512x2048 .f32 × Vec F S1x2048 .f32
  | 0, hn => (k1_pay3 (iblk1 V c 0 ⟨0, hn⟩) (iblk1 V c 1 ⟨0, hn⟩) k1_pay1, k1_pay4 (iblk1 V c 0 ⟨0, hn⟩) k1_pay2)
  | n + 1, hn =>
    if (n + 1) % 16 = 0 then
      (k1_pay3 (iblk1 V c 0 ⟨n + 1, hn⟩) (iblk1 V c 1 ⟨n + 1, hn⟩) k1_pay1, k1_pay4 (iblk1 V c 0 ⟨n + 1, hn⟩) k1_pay2)
    else
      (k1_pay3 (iblk1 V c 0 ⟨n + 1, hn⟩) (iblk1 V c 1 ⟨n + 1, hn⟩) (accAt1 c n (Nat.lt_of_succ_lt hn)).1,
       k1_pay4 (iblk1 V c 0 ⟨n + 1, hn⟩) (accAt1 c n (Nat.lt_of_succ_lt hn)).2)

/-- At the first point of a run: reset, then this point's addends. -/
theorem accAt1_first (c : Dev nD) (t : Fin cfg1.N) (h : t.val % 16 = 0) :
    accAt1 V c t.val t.isLt
      = (k1_pay3 (iblk1 V c 0 t) (iblk1 V c 1 t) k1_pay1, k1_pay4 (iblk1 V c 0 t) k1_pay2) := by
  obtain ⟨n, hn⟩ := t
  cases n with
  | zero => rfl
  | succ n => exact (if_pos h).trans rfl

/-- At a later point of a run: this point's addends over what the point before left. -/
theorem accAt1_next (c : Dev nD) (t : Fin cfg1.N) (h : ¬ t.val % 16 = 0) :
    accAt1 V c t.val t.isLt
      = (k1_pay3 (iblk1 V c 0 t) (iblk1 V c 1 t) (accAt1 V c (t.val - 1) (Nat.lt_of_le_of_lt (Nat.sub_le _ _) t.isLt)).1,
         k1_pay4 (iblk1 V c 0 t) (accAt1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The invariant the region carries -/

/-- The offsets of every access of the body are zero: it loads and stores whole buffers. -/
theorem hz2 : (![0, 0] : Fin 2 → Nat) = fun _ => 0 := funext fun a => by fin_cases a <;> rfl

/-- A position that starts no run has a point before it. -/
theorem pred_lt1 {n : ℕ} (h : ¬n % 16 = 0) (hn : n ≤ cfg1.N) : n - 1 < cfg1.N :=
  Nat.lt_of_lt_of_le (Nat.sub_lt (Nat.pos_of_ne_zero fun h0 => h (by subst h0; rfl)) Nat.one_pos) hn

/-- The core's scoped buffers that this call neither stages through nor accumulates in, each at some contents,
    and the generator register at some state: what the body never touches. -/
def restS1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_scratch0), ((c : Thread nD τ).loc cc2_scratch0) ↦{fullShare} f)
      ∗ (∃ f : Buf (Elt F) ((c : Thread nD τ).loc cc2_scratch1), ((c : Thread nD τ).loc cc2_scratch1) ↦{fullShare} f)
      ∗ (∃ r, prngReg c r))

/-- The plain region invariant with the two scratch buffers taken out in front, each owned whole at some contents. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ restS1 (F := F) c) := by
  unfold Pipeline.ΦA restS1; rw [scopedRest1_eq]; simp only [scM1_0, scM1_1, owns_whole]
  refine BI.equiv_iff.mp ⟨?_, ?_⟩
  · show (_ : sProp 𝕄) ⊢ _
    iintro ⟨⟨A1, A2, A3, A4, A5, A6, S0, S1, B1, B2, B3, B4, B5, B6, B7, B8⟩, G⟩
    iframe
  · show (_ : sProp 𝕄) ⊢ _
    iintro ⟨S0, S1, A1, A2, A3, A4, A5, A6, B1, B2, B3, B4, B5, B6, B7, B8, G⟩
    iframe

/-- The region invariant before position `n`. Where a run of 16 starts (the first point of the grid and the position
    after its last among them) nothing is known of the two scratch buffers: the run's first body overwrites both.
    Inside a run the product accumulator and the degree sum hold what the point before left. -/
def PhiS1 (c : Dev nD) (n : ℕ) (hn : n ≤ cfg1.N) : sProp 𝕄 :=
  if h : n % 16 = 0 then (Pipeline.ΦA spec1 c : sProp 𝕄)
  else iprop(owns (c : Thread nD τ) scM1_0 fullShare (accAt1 V c (n - 1) (pred_lt1 h hn)).1
    ∗ owns (c : Thread nD τ) scM1_1 fullShare (accAt1 V c (n - 1) (pred_lt1 h hn)).2 ∗ restS1 (F := F) c)

theorem PhiS1_start (c : Dev nD) (n : ℕ) (hn : n ≤ cfg1.N) (h : n % 16 = 0) :
    PhiS1 V c n hn = (Pipeline.ΦA spec1 c : sProp 𝕄) := dif_pos h

theorem PhiS1_mid (c : Dev nD) (n : ℕ) (hn : n ≤ cfg1.N) (h : ¬n % 16 = 0) :
    PhiS1 V c n hn = iprop(owns (c : Thread nD τ) scM1_0 fullShare (accAt1 V c (n - 1) (pred_lt1 h hn)).1
      ∗ owns (c : Thread nD τ) scM1_1 fullShare (accAt1 V c (n - 1) (pred_lt1 h hn)).2 ∗ restS1 (F := F) c) := dif_neg h

/-- Before a point inside a run: what the point before left. -/
theorem PhiS1_before (c : Dev nD) (t : Fin cfg1.N) (h : ¬t.val % 16 = 0) :
    PhiS1 V c t.val (Nat.le_of_lt t.isLt)
      = iprop(owns (c : Thread nD τ) scM1_0 fullShare (accAt1 V c (t.val - 1) (Nat.lt_of_le_of_lt (Nat.sub_le _ _) t.isLt)).1
        ∗ owns (c : Thread nD τ) scM1_1 fullShare (accAt1 V c (t.val - 1) (Nat.lt_of_le_of_lt (Nat.sub_le _ _) t.isLt)).2 ∗ restS1 (F := F) c) :=
  PhiS1_mid V c _ _ h

/-- After a point that does not end a run: what that point left. -/
theorem PhiS1_after (c : Dev nD) (t : Fin cfg1.N) (h : ¬(t.val + 1) % 16 = 0) :
    PhiS1 V c (t.val + 1) t.isLt
      = iprop(owns (c : Thread nD τ) scM1_0 fullShare (accAt1 V c t.val t.isLt).1
        ∗ owns (c : Thread nD τ) scM1_1 fullShare (accAt1 V c t.val t.isLt).2 ∗ restS1 (F := F) c) :=
  PhiS1_mid V c _ _ h
/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay5 (accAt1 V c t.val t.isLt).2 (accAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = k1_pay5 (accAt1 V c t.val t.isLt).2 (accAt1 V c t.val t.isLt).1 := by dsimp only [dat1]

/-! ## The body's two conditionals over the grid -/

/-- The first conditional, as the body computes it from the inner coordinate: it resets the two scratch buffers. -/
abbrev cond1_0 (i : grid1.Coords) : Prop := (Scalar.cmpi .ne (Scalar.extui (Scalar.cmpi .eq (BitVec.ofNat 32 (i 1).val) 0#32)) 0#32) = 1#1
/-- It holds exactly at the first point of each run of 16. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional: it stores the scaled result into the output block. -/
abbrev cond1_1 (i : grid1.Coords) : Prop := k1_cond2 i = 1#1
/-- It holds exactly at the last point of each run of 16. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## The body on whole buffers, one control case at a time

In each case the two input blocks `x0` (a 1024 × 2048 block of H) and `x1` (the matching 1024 × 512 block of Xt) are
read and left as they were; the product accumulator ends at `k1_pay3 x0 x1 a` and the degree sum at `k1_pay4 x0 d`,
where `a`, `d` are what the two buffers held when the accumulation began: the stored zeros at a run's first point,
what the point before left at the others. Every store and load is of a whole buffer, so each buffer reads back as the
payload of its last store, and a load after a store reads that store's payload. -/

set_option maxHeartbeats 1000000 in
/-- First point of a run: both scratch buffers, at anything, are reset and accumulated into; the output block is not touched. -/
theorem run1_A (c : Dev nD) (i : grid1.Coords)
    (arg2 : Memref sig .tc .vmem S1024x2048 .f32) (harg2 : arg2.IsWhole) (arg3 : Memref sig .tc .vmem S1024x512 .bf16) (harg3 : arg3.IsWhole)
    (arg4 : Memref sig .tc .vmem S512x2048 .bf16) (harg4 : arg4.IsWhole) (arg5 : Memref sig .tc .vmem S512x2048 .f32) (harg5 : arg5.IsWhole)
    (arg6 : Memref sig .tc .vmem S1x2048 .f32) (harg6 : arg6.IsWhole) (hc0 : cond1_0 i) (hc1 : ¬cond1_1 i)
    (x0 : Vec F S1024x2048 .f32) (x1 : Vec F S1024x512 .bf16) (xi2 : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k1_pay3 x0 x1 k1_pay1) ∗ owns (c : Thread nD τ) arg6 fullShare (k1_pay4 x0 k1_pay2)) -∗ K ⟨⟩))
      ⊢ wp frame (wpE (defs₀ (F := F)) Variants.none c none) E (cc1__v2e_kernel i arg2 harg2 arg3 harg3 arg4 harg4 arg5 harg5 arg6 harg6) K := by
  simp only [cc1__v2e_kernel_eq_skeleton]; unfold cc1__v2e_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread,
      View.ld_unit_zero (S := S1024x2048) hz2, View.ld_unit_zero (S := S1024x512) hz2,
      View.readCov_unit_zero (S := S512x2048) _ hz2, View.readCov_unit_zero (S := S1x2048) _ hz2]
  · iexists _; isplitr
    swap; · iexact HS1
    ipureintro
    try sl_unfold_words
    rw [View.read_writes_eq_canon _ _ _ (fun y => ⟨_, List.mem_cons_self, View.mem_set_unit_zero hz2 inb_S1x2048_S1x2048_0_0 y⟩), View.canon_cons_unit_zero (S := S1x2048) hz2]
    simp only [View.readAt_eq_ld, harg2.read_unread, harg3.read_unread,
      View.ld_unit_zero (S := S1024x2048) hz2, View.ld_unit_zero (S := S1024x512) hz2,
      View.readCov_unit_zero (S := S512x2048) _ hz2, View.readCov_unit_zero (S := S1x2048) _ hz2]

set_option maxHeartbeats 1000000 in
/-- A middle point of a run: the two scratch buffers, at `xs0` and `xs1`, are accumulated into; the output block is not touched. -/
theorem run1_B (c : Dev nD) (i : grid1.Coords)
    (arg2 : Memref sig .tc .vmem S1024x2048 .f32) (harg2 : arg2.IsWhole) (arg3 : Memref sig .tc .vmem S1024x512 .bf16) (harg3 : arg3.IsWhole)
    (arg4 : Memref sig .tc .vmem S512x2048 .bf16) (harg4 : arg4.IsWhole) (arg5 : Memref sig .tc .vmem S512x2048 .f32) (harg5 : arg5.IsWhole)
    (arg6 : Memref sig .tc .vmem S1x2048 .f32) (harg6 : arg6.IsWhole) (hc0 : ¬cond1_0 i) (hc1 : ¬cond1_1 i)
    (x0 : Vec F S1024x2048 .f32) (x1 : Vec F S1024x512 .bf16) (xi2 : Vec F S512x2048 .bf16)
    (xs0 : Vec F S512x2048 .f32) (xs1 : Vec F S1x2048 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare (k1_pay3 x0 x1 xs0) ∗ owns (c : Thread nD τ) arg6 fullShare (k1_pay4 x0 xs1)) -∗ K ⟨⟩))
      ⊢ wp frame (wpE (defs₀ (F := F)) Variants.none c none) E (cc1__v2e_kernel i arg2 harg2 arg3 harg3 arg4 harg4 arg5 harg5 arg6 harg6) K := by
  simp only [cc1__v2e_kernel_eq_skeleton]; unfold cc1__v2e_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]
  · iexists _; isplitr
    swap; · iexact HS1
    ipureintro
    try sl_unfold_words
    rw [View.read_writes_eq_canon _ _ _ (fun y => ⟨_, List.mem_cons_self, View.mem_set_unit_zero hz2 inb_S1x2048_S1x2048_0_0 y⟩), View.canon_cons_unit_zero (S := S1x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]

set_option maxHeartbeats 1000000 in
/-- Last point of a run: the two scratch buffers are accumulated into, and the output block, at anything, is stored
    whole with the accumulated product scaled by the safe reciprocal of the accumulated degree. -/
theorem run1_C (c : Dev nD) (i : grid1.Coords)
    (arg2 : Memref sig .tc .vmem S1024x2048 .f32) (harg2 : arg2.IsWhole) (arg3 : Memref sig .tc .vmem S1024x512 .bf16) (harg3 : arg3.IsWhole)
    (arg4 : Memref sig .tc .vmem S512x2048 .bf16) (harg4 : arg4.IsWhole) (arg5 : Memref sig .tc .vmem S512x2048 .f32) (harg5 : arg5.IsWhole)
    (arg6 : Memref sig .tc .vmem S1x2048 .f32) (harg6 : arg6.IsWhole) (hc0 : ¬cond1_0 i) (hc1 : cond1_1 i)
    (x0 : Vec F S1024x2048 .f32) (x1 : Vec F S1024x512 .bf16)
    (xs0 : Vec F S512x2048 .f32) (xs1 : Vec F S1x2048 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k1_pay5 (k1_pay4 x0 xs1) (k1_pay3 x0 x1 xs0))
            ∗ owns (c : Thread nD τ) arg5 fullShare (k1_pay3 x0 x1 xs0) ∗ owns (c : Thread nD τ) arg6 fullShare (k1_pay4 x0 xs1)) -∗ K ⟨⟩))
      ⊢ wp frame (wpE (defs₀ (F := F)) Variants.none c none) E (cc1__v2e_kernel i arg2 harg2 arg3 harg3 arg4 harg4 arg5 harg5 arg6 harg6) K := by
  simp only [cc1__v2e_kernel_eq_skeleton]; unfold cc1__v2e_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]
  isplitl [HS0]
  · iexists _; isplitr
    swap; · iexact HS0
    ipureintro
    try sl_unfold_words
    rw [View.read_writes_eq_canon _ _ _ (fun y => ⟨_, List.mem_cons_self, View.mem_set_unit_zero hz2 inb_S512x2048_S512x2048_0_0 y⟩), View.canon_cons_unit_zero (S := S512x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]
  · iexists _; isplitr
    swap; · iexact HS1
    ipureintro
    try sl_unfold_words
    rw [View.read_writes_eq_canon _ _ _ (fun y => ⟨_, List.mem_cons_self, View.mem_set_unit_zero hz2 inb_S1x2048_S1x2048_0_0 y⟩), View.canon_cons_unit_zero (S := S1x2048) hz2]
    simp only [View.readAt_eq_ld, harg2.read_unread, harg3.read_unread, harg5.read_unread, harg6.read_unread,
      View.ld_unit_zero (S := S1024x2048) hz2, View.ld_unit_zero (S := S1024x512) hz2, View.ld_unit_zero (S := S512x2048) hz2,
      View.ld_unit_zero (S := S1x2048) hz2, View.readCov_unit_zero (S := S512x2048) _ hz2, View.readCov_unit_zero (S := S1x2048) _ hz2]

/-! ## Where the windows are live -/

/-- The two inputs are staged at every point. -/
theorem liveAt1_0 : ∀ t : Fin cfg1.N, cfg1.idle 0 (grid1.coords t) = false := by decide +kernel
theorem liveAt1_1 : ∀ t : Fin cfg1.N, cfg1.idle 1 (grid1.coords t) = false := by decide +kernel
/-- The output block is stored at a run's last point only: elsewhere the body leaves it alone, -/
theorem idleAt1_2 : ∀ t : Fin cfg1.N, ¬t.val % 16 = 15 → cfg1.idle 2 (grid1.coords t) = true := by decide +kernel
theorem liveAt1_2 : ∀ t : Fin cfg1.N, t.val % 16 = 15 → cfg1.idle 2 (grid1.coords t) = false := by decide +kernel
/-- and the pipeline does not write it back there. -/
theorem noFlush1_2 (t : Fin cfg1.N) (h : ¬t.val % 16 = 15) : (cfg1.win 2).flush t = false :=
  Bool.eq_false_iff.mpr fun hf => h ((flush1_2 t).mp hf)

/-! ## The inputs' staging buffers hold their blocks -/

/-- An input's current staging buffer holds the window's block at the point, fetched there or not: where it is not
    fetched the block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-- The invariant at a point's start, restated at the point's position. -/
theorem Phi1_castSucc (c : Dev nD) (t : Fin cfg1.N) :
    (dat1 V c).Φ t.castSucc = PhiS1 V c t.val (Nat.le_of_lt t.isLt) := by
  dsimp only [dat1]; simp only [Fin.coe_castSucc]

/-! ## The body obligation at a point -/

/-- What the body is handed at point `t`: the invariant, what the core owes, and the three windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4000000 in
/-- The body at any point. The point's position in its run of 16 selects the control case. At a first point the
    plain invariant yields the two scratch buffers at anything and takes them back at the reset-and-add contents;
    at a middle point they come at what the point before left and go back one addend further; at a last point they
    come likewise, the output block is stored from the NEW contents, and since the next position starts a run their
    contents are forgotten again. Where the output block is not stored the window is idle and handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, Phi1_castSucc]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 64 := lt_of_lt_of_eq t.isLt (show cfg1.N = 64 from N_1)
  by_cases h0 : t.val % 16 = 0
  · -- the first point of a run
    have h15 : ¬t.val % 16 = 15 := by omega
    have hs : ¬(t.val + 1) % 16 = 0 := by omega
    rw [Dat.leavesExact_idle (dat1 V c) 2 t (idleAt1_2 t h15) (noFlush1_2 t h15)]
    rw [PhiS1_start V c _ _ h0, PhiA1_eq, PhiS1_after V c t hs, accAt1_first V c t h0]
    dsimp only
    iintro ⟨⟨HS0, HS1, HR⟩, Ho, ⟨%d0, H0⟩, ⟨%d1, H1⟩, ⟨%d2, H2⟩⟩
    iapply (run1_A c (grid1.coords t) _ _ _ _ _ _ _ _ _ _ ((hcond1_0 t).mpr h0) (fun h => h15 ((hcond1_1 t).mp h)) (iblk1 V c 0 t) (iblk1 V c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR]
    · isplitl [HS0]; · iexact HS0
      isplitl [HS1]; · iexact HS1
      iexact HR
    isplitl [Ho]; · iexact Ho
    isplitl [H0]; · iexact H0
    isplitl [H1]; · iexact H1
    iexists _; iexact H2
  · by_cases h15 : t.val % 16 = 15
    · -- the last point of a run
      have hs : (t.val + 1) % 16 = 0 := by omega
      rw [show (dat1 V c).leavesExact 2 t = owns (c : Thread nD τ) (st1_2 t) fullShare ((dat1 V c).after 2 t) from by
        unfold Dat.leavesExact; rw [liveAt1_2 t h15], after1_2]
      rw [PhiS1_before V c t h0, PhiS1_start V c _ _ hs, PhiA1_eq, accAt1_next V c t h0]
      dsimp only
      iintro ⟨⟨HS0, HS1, HR⟩, Ho, ⟨%d0, H0⟩, ⟨%d1, H1⟩, ⟨%d2, H2⟩⟩
      iapply (run1_C c (grid1.coords t) _ _ _ _ _ _ _ _ _ _ (fun h => h0 ((hcond1_0 t).mp h)) ((hcond1_1 t).mpr h15) (iblk1 V c 0 t) (iblk1 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR]
      · isplitl [HS0]; · iexists _; iexact HS0
        isplitl [HS1]; · iexists _; iexact HS1
        iexact HR
      isplitl [Ho]; · iexact Ho
      isplitl [H0]; · iexact H0
      isplitl [H1]; · iexact H1
      iexact H2
    · -- a middle point of a run
      have hs : ¬(t.val + 1) % 16 = 0 := by omega
      rw [Dat.leavesExact_idle (dat1 V c) 2 t (idleAt1_2 t h15) (noFlush1_2 t h15)]
      rw [PhiS1_before V c t h0, PhiS1_after V c t hs, accAt1_next V c t h0]
      dsimp only
      iintro ⟨⟨HS0, HS1, HR⟩, Ho, ⟨%d0, H0⟩, ⟨%d1, H1⟩, ⟨%d2, H2⟩⟩
      iapply (run1_B c (grid1.coords t) _ _ _ _ _ _ _ _ _ _ (fun h => h0 ((hcond1_0 t).mp h)) (fun h => h15 ((hcond1_1 t).mp h)) (iblk1 V c 0 t) (iblk1 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR]
      · isplitl [HS0]; · iexact HS0
        isplitl [HS1]; · iexact HS1
        iexact HR
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_start V c 0 _ rfl]

/-- After the last point the invariant gives it back. -/
theorem hout1 (c : Dev nD) : (dat1 V c).Φ (Fin.last cfg1.N) ⊢ (Pipeline.ΦA spec1 c : sProp 𝕄) := by
  rw [show (dat1 V c).Φ (Fin.last cfg1.N) = PhiS1 V c cfg1.N (Nat.le_refl _) from rfl,
    PhiS1_start V c _ _ (show cfg1.N % 16 = 0 by rw [show cfg1.N = 64 from N_1])]

end Cert.KernelIdeal.Hand

end
-- ==== Proof.Ideal.Region2.lean ====
/- Region 2 of @main: the edge-to-vertex aggregation, H·Xe scaled per vertex by the safe reciprocal of H's row sum and clamped at zero; the 8192 edges are walked in 4 blocks of 2048 per block of 1024 vertices. -/
import proofs.«146423_j40303973106024_1_alg».proof.Proof.Gen.KernelIdeal.Launch
import proofs.«146423_j40303973106024_1_alg».proof.Proof.Gen.KernelIdeal.Skeleton
import proofs.«146423_j40303973106024_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch operands the kernel carries from point to point: whole scoped buffers of its own. -/
abbrev scM2_0 : Memref sig .tc .vmem S1024x512 .f32 := Memref.whole cc2_scratch0
abbrev scM2_1 : Memref sig .tc .vmem S1024x1 .f32 := Memref.whole cc2_scratch1

/-- THE ACCUMULATION. What the two scratch buffers (the product accumulator, the degree sum) hold after the body at
    position `n`: at the first point of a run of 4 (the inner grid axis at 0) both are reset and this point's
    addends added; at the others this point's addends are added to what the point before left. -/
def accAt2 (c : Dev nD) : (n : ℕ) → n < cfg2.N → Vec F S1024x512 .f32 × Vec F S1024x1 .f32
  | 0, hn => (k2_pay3 (iblk2 V c 0 ⟨0, hn⟩) (iblk2 V c 1 ⟨0, hn⟩) k2_pay1, k2_pay4 (iblk2 V c 0 ⟨0, hn⟩) k2_pay2)
  | n + 1, hn =>
    if (n + 1) % 4 = 0 then
      (k2_pay3 (iblk2 V c 0 ⟨n + 1, hn⟩) (iblk2 V c 1 ⟨n + 1, hn⟩) k2_pay1, k2_pay4 (iblk2 V c 0 ⟨n + 1, hn⟩) k2_pay2)
    else
      (k2_pay3 (iblk2 V c 0 ⟨n + 1, hn⟩) (iblk2 V c 1 ⟨n + 1, hn⟩) (accAt2 c n (Nat.lt_of_succ_lt hn)).1,
       k2_pay4 (iblk2 V c 0 ⟨n + 1, hn⟩) (accAt2 c n (Nat.lt_of_succ_lt hn)).2)

/-- At the first point of a run: reset, then this point's addends. -/
theorem accAt2_first (c : Dev nD) (t : Fin cfg2.N) (h : t.val % 4 = 0) :
    accAt2 V c t.val t.isLt
      = (k2_pay3 (iblk2 V c 0 t) (iblk2 V c 1 t) k2_pay1, k2_pay4 (iblk2 V c 0 t) k2_pay2) := by
  obtain ⟨n, hn⟩ := t
  cases n with
  | zero => rfl
  | succ n => exact (if_pos h).trans rfl

/-- At a later point of a run: this point's addends over what the point before left. -/
theorem accAt2_next (c : Dev nD) (t : Fin cfg2.N) (h : ¬ t.val % 4 = 0) :
    accAt2 V c t.val t.isLt
      = (k2_pay3 (iblk2 V c 0 t) (iblk2 V c 1 t) (accAt2 V c (t.val - 1) (Nat.lt_of_le_of_lt (Nat.sub_le _ _) t.isLt)).1,
         k2_pay4 (iblk2 V c 0 t) (accAt2 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The body's two conditionals, over the grid -/

/-- The first conditional of the body: the inner grid coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: the inner grid coordinate is 3. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Off a run's last point the output window is idle and its block is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At a run's last point it is live. -/
theorem liveAt2_2 : ∀ t : Fin cfg2.N, cond2_1 (grid2.coords t) → cfg2.idle 2 (grid2.coords t) = false := by decide +kernel

/-- Each window's current staging memref at point `t`, and its wholeness. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .f32 := win2_2.stage (cfg2.slots t 2)
abbrev hs2_2 (t : Fin cfg2.N) : (ms2_2 t).IsWhole := hstage2_2 ((cfg2.slots t 2).cast nbuf2_2)

/-! ## The body's triple, one per control case -/

/-- The whole-buffer rectangle's offsets are zero. -/
theorem hzR2 : (![0, 0] : Fin 2 → Nat) = fun _ => 0 := funext fun a => by fin_cases a <;> rfl

set_option maxHeartbeats 1000000 in
/-- The body at a run's first point (first conditional taken, second not), on whole memrefs: the inputs at their blocks,
    the output window at contents handed back untouched, the two scratch buffers at anything. Both scratch buffers
    are zeroed and read back, so they end at this block's product over zero and this block's row sums over zero. -/
theorem run2_A (c : Dev nD) (i : grid2.Coords) (arg2 : Memref sig .tc .vmem S1024x2048 .f32) (harg2 : arg2.IsWhole) (arg3 : Memref sig .tc .vmem S512x2048 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole)
    (hc0 : cond2_0 i) (hc1 : ¬cond2_1 i)
    (x0 : Vec F S1024x2048 .f32) (x1 : Vec F S512x2048 .bf16) (xi2 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (k2_pay3 x0 x1 k2_pay1) ∗ owns (c : Thread nD τ) arg6 fullShare (k2_pay4 x0 k2_pay2)) -∗ K ⟨⟩))
      ⊢ wp frame (wpE (defs₀ (F := F)) Variants.none c none) E (cc2__e2v_kernel i arg2 harg2 arg3 harg3 arg4 harg4 arg5 harg5 arg6 harg6) K := by
  simp only [cc2__e2v_kernel_eq_skeleton]; unfold cc2__e2v_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_cons_self, View.mem_set_unit_zero hzR2 inb_S1024x512_S1024x512_0_0 y⟩)]
    sl_unfold_words
    rw [View.canon_cons_unit_zero (S := S1024x512) hzR2]
    simp only [View.readAt_eq_ld, harg2.read_unread, harg3.read_unread, View.ld_unit_zero (S := S1024x2048) hzR2, View.ld_unit_zero (S := S512x2048) hzR2, View.readCov_unit_zero (S := S1024x512) _ hzR2]
  · iexists _; isplitr
    swap; · iexact HS1
    ipureintro
    rw [View.read_writes_eq_canon _ _ _ (fun y => ⟨_, List.mem_cons_self, View.mem_set_unit_zero hzR2 inb_S1024x1_S1024x1_0_0 y⟩)]
    sl_unfold_words
    rw [View.canon_cons_unit_zero (S := S1024x1) hzR2]
    simp only [View.readAt_eq_ld, harg2.read_unread, harg3.read_unread, View.ld_unit_zero (S := S1024x2048) hzR2, View.ld_unit_zero (S := S512x2048) hzR2, View.readCov_unit_zero (S := S1024x1) _ hzR2]

set_option maxHeartbeats 1000000 in
/-- The body at a point inside a run (neither conditional taken): the output window handed back untouched, the two
    scratch buffers at what the point before left (`xs0`, `xs1`) end at this block's product and row sums added to them. -/
theorem run2_B (c : Dev nD) (i : grid2.Coords) (arg2 : Memref sig .tc .vmem S1024x2048 .f32) (harg2 : arg2.IsWhole) (arg3 : Memref sig .tc .vmem S512x2048 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole)
    (hc0 : ¬cond2_0 i) (hc1 : ¬cond2_1 i)
    (x0 : Vec F S1024x2048 .f32) (x1 : Vec F S512x2048 .bf16) (xi2 : Vec F S1024x512 .f32)
    (xs0 : Vec F S1024x512 .f32) (xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare xs0 ∗ owns (c : Thread nD τ) arg6 fullShare xs1
        ∗ (iprop(owns (c : Thread nD τ) arg2 fullShare x0 ∗ owns (c : Thread nD τ) arg3 fullShare x1 ∗ owns (c : Thread nD τ) arg4 fullShare xi2
            ∗ owns (c : Thread nD τ) arg5 fullShare (k2_pay3 x0 x1 xs0) ∗ owns (c : Thread nD τ) arg6 fullShare (k2_pay4 x0 xs1)) -∗ K ⟨⟩))
      ⊢ wp frame (wpE (defs₀ (F := F)) Variants.none c none) E (cc2__e2v_kernel i arg2 harg2 arg3 harg3 arg4 harg4 arg5 harg5 arg6 harg6) K := by
  simp only [cc2__e2v_kernel_eq_skeleton]; unfold cc2__e2v_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  isplitl [HS0]
  · iexists _; isplitr
    swap; · iexact HS0
    ipureintro
    rw [View.read_writes_eq_canon _ _ _ (fun y => ⟨_, List.mem_cons_self, View.mem_set_unit_zero hzR2 inb_S1024x512_S1024x512_0_0 y⟩)]
    sl_unfold_words
    rw [View.canon_cons_unit_zero (S := S1024x512) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]
  · iexists _; isplitr
    swap; · iexact HS1
    ipureintro
    rw [View.read_writes_eq_canon _ _ _ (fun y => ⟨_, List.mem_cons_self, View.mem_set_unit_zero hzR2 inb_S1024x1_S1024x1_0_0 y⟩)]
    sl_unfold_words
    rw [View.canon_cons_unit_zero (S := S1024x1) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]

set_option maxHeartbeats 1000000 in
/-- The body at a run's last point (second conditional taken, first not): the scratch buffers are updated as inside
    a run, then the output window receives the scaled and clamped quotient of the NEW accumulator by the NEW degree sum. -/
theorem run2_C (c : Dev nD) (i : grid2.Coords) (arg2 : Memref sig .tc .vmem S1024x2048 .f32) (harg2 : arg2.IsWhole) (arg3 : Memref sig .tc .vmem S512x2048 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1 .f32) (harg6 : arg6.IsWhole)
    (hc0 : ¬cond2_0 i) (hc1 : cond2_1 i)
    (x0 : Vec F S1024x2048 .f32) (x1 : Vec F S512x2048 .bf16)
    (xs0 : Vec F S1024x512 .f32) (xs1 : Vec F S1024x1 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs0 ∗ owns (c : Thread nD τ) arg6 fullShare xs1
        ∗ (iprop(owns (c : Thread nD τ) arg2 fullShare x0 ∗ owns (c : Thread nD τ) arg3 fullShare x1
            ∗ owns (c : Thread nD τ) arg4 fullShare (k2_pay5 (k2_pay4 x0 xs1) (k2_pay3 x0 x1 xs0))
            ∗ owns (c : Thread nD τ) arg5 fullShare (k2_pay3 x0 x1 xs0) ∗ owns (c : Thread nD τ) arg6 fullShare (k2_pay4 x0 xs1)) -∗ K ⟨⟩))
      ⊢ wp frame (wpE (defs₀ (F := F)) Variants.none c none) E (cc2__e2v_kernel i arg2 harg2 arg3 harg3 arg4 harg4 arg5 harg5 arg6 harg6) K := by
  simp only [cc2__e2v_kernel_eq_skeleton]; unfold cc2__e2v_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg2.eq_unread hf0; obtain rfl := harg3.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero hzR2 inb_S1024x512_S1024x512_0_0 y⟩)]
    rw [View.canon_cons_unit_zero (S := S1024x512) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]
  isplitl [HS0]
  · iexists _; isplitr
    swap; · iexact HS0
    ipureintro
    sl_unfold_words
    rw [View.read_writes_eq_canon _ _ _ (fun y => ⟨_, List.mem_cons_self, View.mem_set_unit_zero hzR2 inb_S1024x512_S1024x512_0_0 y⟩)]
    rw [View.canon_cons_unit_zero (S := S1024x512) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]
  · iexists _; isplitr
    swap; · iexact HS1
    ipureintro
    sl_unfold_words
    rw [View.read_writes_eq_canon _ _ _ (fun y => ⟨_, List.mem_cons_self, View.mem_set_unit_zero hzR2 inb_S1024x1_S1024x1_0_0 y⟩)]
    rw [View.canon_cons_unit_zero (S := S1024x1) hzR2]
    simp only [View.readAt_eq_ld, harg2.read_unread, harg3.read_unread, harg5.read_unread, harg6.read_unread, View.ld_unit_zero (S := S1024x2048) hzR2, View.ld_unit_zero (S := S512x2048) hzR2, View.ld_unit_zero (S := S1024x512) hzR2, View.ld_unit_zero (S := S1024x1) hzR2, View.readCov_unit_zero (S := S1024x512) _ hzR2, View.readCov_unit_zero (S := S1024x1) _ hzR2]

/-! ## The region invariant -/

/-- The scoped buffers of the core that are neither staging buffers of this region nor its two scratch buffers,
    each at some contents. -/
def rest2 (c : Dev nD) : sProp 𝕄 :=
  Pipeline.scopedRestBut (Ix := Unit) (Name := ℕ) (U := UR sig nD τ) (Lvl := ℕ) (Val := Elt F) spec2 c [cc2_scratch0, cc2_scratch1]

/-- The invariant with the two scratch buffers named at contents `a`, `b`. -/
def named2 (c : Dev nD) (a : Vec F S1024x512 .f32) (b : Vec F S1024x1 .f32) : sProp 𝕄 :=
  iprop(((owns (c : Thread nD τ) scM2_0 fullShare a ∗ owns (c : Thread nD τ) scM2_1 fullShare b) ∗ rest2 c) ∗ (∃ r, prngReg c r))

/-- The class's invariant with the two scratch buffers split off the scoped rest, each at some contents. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d)) ∗ rest2 c) ∗ (∃ r, prngReg c r)) := by
  unfold Pipeline.ΦA rest2
  rw [Pipeline.scopedRest_split_of_list spec2 c [cc2_scratch0, cc2_scratch1] (by decide) (by decide)]
  simp only [scM2_0, scM2_1, owns_whole, bigSepL]
  try rfl

/-- The region invariant before position `n`: where a run of 4 starts, every scoped buffer no window stages at some
    contents and the generator register at some state; inside a run the same with the two carried scratch buffers
    at what the point before left in them. -/
def PhiS2 (c : Dev nD) : (n : ℕ) → n ≤ cfg2.N → sProp 𝕄
  | 0, _ => Pipeline.ΦA spec2 c
  | n + 1, hn =>
    if (n + 1) % 4 = 0 then Pipeline.ΦA spec2 c
    else named2 c (accAt2 V c n hn).1 (accAt2 V c n hn).2

theorem PhiS2_start (c : Dev nD) (n : ℕ) (hn : n ≤ cfg2.N) (h : n % 4 = 0) : PhiS2 V c n hn = Pipeline.ΦA spec2 c := by
  cases n with
  | zero => rfl
  | succ n => exact if_pos h

theorem PhiS2_succ (c : Dev nD) (n : ℕ) (hn : n < cfg2.N) (h : ¬ (n + 1) % 4 = 0) :
    PhiS2 V c (n + 1) hn = named2 c (accAt2 V c n hn).1 (accAt2 V c n hn).2 := if_neg h

theorem PhiS2_pos (c : Dev nD) (n : ℕ) (hn : n ≤ cfg2.N) (h : ¬ n % 4 = 0) :
    PhiS2 V c n hn = named2 c (accAt2 V c (n - 1) (by omega)).1 (accAt2 V c (n - 1) (by omega)).2 := by
  cases n with
  | zero => exact absurd (Nat.zero_mod _) h
  | succ n => exact if_neg h

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay5 (accAt2 V c t.val t.isLt).2 (accAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = k2_pay5 (accAt2 V c t.val t.isLt).2 (accAt2 V c t.val t.isLt).1 := by dsimp only [dat2]

/-! ## The body obligation -/

theorem PhiS2_castSucc (c : Dev nD) (t : Fin cfg2.N) :
    (dat2 V c).Φ t.castSucc = PhiS2 V c t.val (Nat.le_of_lt t.isLt) := by
  dsimp only [dat2]; simp only [Fin.coe_castSucc]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point, by the three control cases. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h0 : t.val % 4 = 0
  · -- a run's first point
    have h1 : ¬ t.val % 4 = 3 := by omega
    have hs : ¬ (t.val + 1) % 4 = 0 := by omega
    have hc1 : ¬cond2_1 (grid2.coords t) := fun h => h1 ((hcond2_1 t).mp h)
    rw [Dat.leavesExact_idle (dat2 V c) 2 t (idleAt2_2 t hc1) (noFlush2_2 t hc1)]
    rw [PhiS2_start V c _ _ h0, PhiA2_eq, PhiS2_succ V c _ _ hs, accAt2_first V c t h0]
    unfold named2; dsimp only
    iintro ⟨⟨⟨⟨HS0, HS1⟩, HR⟩, Hg⟩, Ho, ⟨%d0, H0⟩, ⟨%d1, H1⟩, ⟨%d2, H2⟩⟩
    iapply (run2_A c (grid2.coords t) _ (hs2_0 t) _ (hs2_1 t) _ (hs2_2 t) _ (Memref.isWhole_whole _) _ (Memref.isWhole_whole _)
      ((hcond2_0 t).mpr h0) hc1 (iblk2 V c 0 t) (iblk2 V c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    by_cases h1 : t.val % 4 = 3
    · -- a run's last point
      have hs : (t.val + 1) % 4 = 0 := by omega
      have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [PhiS2_pos V c _ _ h0, PhiS2_start V c _ _ hs, PhiA2_eq, accAt2_next V c t h0]
      unfold named2; dsimp only
      iintro ⟨⟨⟨⟨HS0, HS1⟩, HR⟩, Hg⟩, Ho, ⟨%d0, H0⟩, ⟨%d1, H1⟩, ⟨%d2, H2⟩⟩
      iapply (run2_C c (grid2.coords t) _ (hs2_0 t) _ (hs2_1 t) _ (hs2_2 t) _ (Memref.isWhole_whole _) _ (Memref.isWhole_whole _)
        hc0 hc1 (iblk2 V c 0 t) (iblk2 V c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexists _; iexact HS0
            iexists _; iexact HS1
          iexact HR
        iexact Hg
      isplitl [Ho]; · iexact Ho
      isplitl [H0]; · iexact H0
      isplitl [H1]; · iexact H1
      iexact H2
    · -- a point inside a run
      have hs : ¬ (t.val + 1) % 4 = 0 := by omega
      have hc1 : ¬cond2_1 (grid2.coords t) := fun h => h1 ((hcond2_1 t).mp h)
      rw [Dat.leavesExact_idle (dat2 V c) 2 t (idleAt2_2 t hc1) (noFlush2_2 t hc1)]
      rw [PhiS2_pos V c _ _ h0, PhiS2_succ V c _ _ hs, accAt2_next V c t h0]
      unfold named2; dsimp only
      iintro ⟨⟨⟨⟨HS0, HS1⟩, HR⟩, Hg⟩, Ho, ⟨%d0, H0⟩, ⟨%d1, H1⟩, ⟨%d2, H2⟩⟩
      iapply (run2_B c (grid2.coords t) _ (hs2_0 t) _ (hs2_1 t) _ (hs2_2 t) _ (Memref.isWhole_whole _) _ (Memref.isWhole_whole _)
        hc0 hc1 (iblk2 V c 0 t) (iblk2 V c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_start V c 0 _ rfl]
  try exact Idealize.SL.BI.Entails.refl _

/-- After the last point the invariant gives it back. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_start V c _ _ (by rw [Fin.val_last]; have : cfg2.N = 64 := N_2; omega)]
  try exact Idealize.SL.BI.Entails.refl _

end Cert.KernelIdeal.Hand

end
-- ==== Proof.Ideal.Run.lean ====
/- The run of @main: one stretch of host operations, then the three kernel regions one after the other. The
   unscoped buffers' contents at each boundary are a fold from the launch memory; each region is entered from the
   contents the item before it left and leaves its arrays at what its write-backs fold to. -/
import proofs.«146423_j40303973106024_1_alg».proof.Proof.Ideal.Region0
import proofs.«146423_j40303973106024_1_alg».proof.Proof.Ideal.Region1
import proofs.«146423_j40303973106024_1_alg».proof.Proof.Ideal.Region2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (an input as entered, the output's write-backs folded),
    every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (an input as entered, the output's write-backs folded),
    every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- `main_arg0` reaches the end as launched: a region reads it through an input window or bypasses it, and the host
    stretch does not write it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg0) := rfl

/-- `main_arg1` reaches the end as launched: a region reads it through an input window or bypasses it, and the host
    stretch does not write it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 0).trans (((dat2 (V3 m ρ) c).arrAt_in 0 rfl _).trans (A_eq2 (V3 m ρ) c 0))
    _ = W2 m ρ c (Proc.devRef .tc main_arg1) := (W3_arr m ρ c 0).trans (((dat1 (V2 m ρ) c).arrAt_in 0 rfl _).trans (A_eq1 (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg1) := rfl

/-- `main_arg2` reaches the end as launched: a region reads it through an input window or bypasses it, and the host
    stretch does not write it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg2) := rfl

/-- `main_arg3` reaches the end as launched: a region reads it through an input window or bypasses it, and the host
    stretch does not write it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = m ((c : Thread nD τ).loc main_arg3) := rfl

/-- The result array at the end is what region 2's write-backs fold to. -/
theorem W4_main_v3 (c : Dev nD) : W4 m ρ c (Proc.devRef .tc main_v3) = (dat2 (V3 m ρ) c).arrAt 2 cfg2.N :=
  W4_arr m ρ c 2

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh' : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered with every unscoped buffer at `W1`, left with them at `W2`. Its arrays
    are split out of the unscoped buffers at entry and put back at their final contents at exit; the scoped rest and the
    generator register go into the kernel's invariant and come back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its arrays
    are split out of the unscoped buffers at entry and put back at their final contents at exit; the scoped rest and the
    generator register go into the kernel's invariant and come back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W3`, left with them at `W4`. Its arrays
    are split out of the unscoped buffers at entry and put back at their final contents at exit; the scoped rest and the
    generator register go into the kernel's invariant and come back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m ρ) c)
    unfold Pipeline.ΦA
    iintro ⟨Hp, -, Hr⟩
    isplitl [Hr]; · iexact Hr
    iexact Hp
  hout c := by
    rw [Pipeline.ownSems0_none]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result array named: what region 2's write-backs fold to, the arguments as launched. -/
theorem run_value : θ_run defs (onTc (τ := τ) (main (F := F))) ⟨m, fun _ => 0, ρ⟩ (fun r => ∀ c : Dev nD,
      r.2.mem ((c.tc : Thread nD τ).loc main_v3) = (dat2 (V3 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.Spec.lean ====
/- The specification: hypergraph message passing as one function of the four inputs, coordinate by coordinate on
   the extended reals. Vertices v < 16384, hyperedges e < 8192, channels o, k < 512.
     theta  : Xt(v, o)  = (∑ k, X(v, k) · W(o, k)) + b(o)
     v2e    : XeT(o, e) = (∑ v, Xt(v, o) · H(v, e)) · r(∑ v, H(v, e))
     e2v    : Xv(v, o)  = max ((∑ e, H(v, e) · XeT(o, e)) · r(∑ e, H(v, e))) 0
   where r is the safe reciprocal: 0 at 0, 1/d elsewhere. -/
import Idealize.ShloMosaic.PureOps.Ideal
import Idealize.ShloMosaic.PureOps.Ideal.Laws
import Idealize.ShloMosaic.Lib.ValueIdx

noncomputable section

namespace Cert.Spec

open Idealize.ShloMosaic

/-- The safe reciprocal of a degree: zero where the degree compares equal to zero, one over it elsewhere — the
    comparison, the two float words and the quotient spelt as both programs spell them. -/
def recip (d : EReal) : EReal :=
  Scalar.select (Ideal.cmp .oeq d (Ideal.ofBits .f32 0x00000000#32)) (Ideal.ofBits .f32 0x00000000#32)
    (Ideal.div (Ideal.ofBits .f32 0x3F800000#32) d)

/-- The linear layer: row v of X against row o of W, plus the bias. -/
def theta (x : Fin 16384 → Fin 512 → EReal) (w : Fin 512 → Fin 512 → EReal) (b : Fin 512 → EReal)
    (v : Fin 16384) (o : Fin 512) : EReal :=
  (∑ k : Fin 512, x v k * w o k) + b o

/-- Vertices to hyperedges, transposed: channel o of hyperedge e is the H-weighted sum of its vertices' features over the
    hyperedge's degree. -/
def v2e (h : Fin 16384 → Fin 8192 → EReal) (xt : Fin 16384 → Fin 512 → EReal) (o : Fin 512) (e : Fin 8192) : EReal :=
  (∑ v : Fin 16384, xt v o * h v e) * recip (∑ v : Fin 16384, h v e)

/-- Hyperedges back to vertices, clamped at zero: channel o of vertex v is the H-weighted sum of its hyperedges' features
    over the vertex's degree. -/
def e2v (h : Fin 16384 → Fin 8192 → EReal) (xet : Fin 512 → Fin 8192 → EReal) (v : Fin 16384) (o : Fin 512) : EReal :=
  max ((∑ e : Fin 8192, h v e * xet o e) * recip (∑ e : Fin 8192, h v e)) 0

/-- The whole layer. -/
def G (x : Fin 16384 → Fin 512 → EReal) (h : Fin 16384 → Fin 8192 → EReal) (w : Fin 512 → Fin 512 → EReal)
    (b : Fin 512 → EReal) (v : Fin 16384) (o : Fin 512) : EReal :=
  e2v h (v2e h (theta x w b)) v o

end Cert.Spec

end
-- ==== Proof.Ideal.Val0.lean ====
/- What region 0 leaves in its output array: the linear layer of its three input arrays, entry by entry. -/
import proofs.«146423_j40303973106024_1_alg».proof.Proof.Ideal.Region0
import proofs.«146423_j40303973106024_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered, at the ideal instance
variable (V : (c : Dev nD) → (b : Ref sig .tc) → Buf (Elt Ideal) ((c : Thread nD τ).loc b))

/-! ## The payload at an index -/

/-- The zero offsets, however spelt. -/
theorem zero_off2 : (![0, 0] : Fin 2 → Nat) = fun _ => 0 := funext fun a => by fin_cases a <;> rfl

/-- The left operand's row is the output's row. -/
theorem lhs_lin_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
/-- The left operand's column is the contraction index. -/
theorem lhs_lin_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
/-- The right operand's row is the output's column. -/
theorem rhs_lin_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
/-- The right operand's column is the contraction index. -/
theorem rhs_lin_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The matmul into the zero accumulator, at (r, o): row r of the left operand against row o of the right. -/
theorem matmul_lin_apply (a : FVec Ideal S2048x512 .bf16) (b : FVec Ideal S512x512 .bf16) (r : Fin 2048) (o : Fin 512) :
    FloatOps.matmul dot_S2048x512_S512x512_S2048x512_1_1_0_0_n_n none a b (constant (F := Ideal) S2048x512 .f32 0x00000000#32) (ix2 r o)
      = ∑ k : Fin 512, a (ix2 r k) * b (ix2 o k) := by
  rw [Ideal.matmul_constant_zero_apply, ← Equiv.sum_comp (ValueIdx.contrEquiv1 dot_S2048x512_S512x512_S2048x512_1_1_0_0_n_n 512 rfl rfl).symm]
  refine Finset.sum_congr rfl fun k _ => ?_
  have hk := ValueIdx.contrEquiv1_symm_val dot_S2048x512_S512x512_S2048x512_1_1_0_0_n_n 512 rfl rfl k
  have el : dot_S2048x512_S512x512_S2048x512_1_1_0_0_n_n.lhsIdx (ix2 r o) ((ValueIdx.contrEquiv1 dot_S2048x512_S512x512_S2048x512_1_1_0_0_n_n 512 rfl rfl).symm k) = ix2 r k := funext fun d => Fin.ext (by
    match d with
    | ⟨0, _⟩ => exact lhs_lin_0 _ _
    | ⟨1, _⟩ => exact (lhs_lin_1 _ _).trans hk)
  have er : dot_S2048x512_S512x512_S2048x512_1_1_0_0_n_n.rhsIdx (ix2 r o) ((ValueIdx.contrEquiv1 dot_S2048x512_S512x512_S2048x512_1_1_0_0_n_n 512 rfl rfl).symm k) = ix2 o k := funext fun d => Fin.ext (by
    match d with
    | ⟨0, _⟩ => exact rhs_lin_0 _ _
    | ⟨1, _⟩ => exact (rhs_lin_1 _ _).trans hk)
  rw [el, er]

/-- The bias row broadcast down the rows, at (r, o): its entry o. -/
theorem bias_lin_apply (x2 : Vec Ideal S1x512 .f32) (r : Fin 2048) (o : Fin 512) :
    broadcastTo S2048x512 (shapeCast S1x512 x2 shapeCasts_S1x512_S1x512) broadcasts_S1x512_S2048x512 (ix2 r o) = x2 (ix2 (0 : Fin 1) o) := by
  rw [shapeCast_self]
  refine broadcastTo_apply x2 broadcasts_S1x512_S2048x512 (ix2 r o) (ix2 (0 : Fin 1) o) fun d => ?_
  match d with
  | ⟨0, _⟩ => rfl
  | ⟨1, _⟩ => rfl

/-- The body's payload at (r, o): row r of the staged X block against row o of W, plus the bias row's entry o. -/
theorem pay_lin_apply (x0 : Vec Ideal S2048x512 .f32) (x1 : Vec Ideal S512x512 .f32) (x2 : Vec Ideal S1x512 .f32) (r : Fin 2048) (o : Fin 512) :
    k0_pay1 (F := Ideal) x0 x1 x2 (ix2 r o) = (∑ k : Fin 512, x0 (ix2 r k) * x1 (ix2 o k)) + x2 (ix2 (0 : Fin 1) o) := by
  unfold k0_pay1
  rw [truncf_apply, addf_apply, bias_lin_apply]
  refine congrArg (· + x2 (ix2 (0 : Fin 1) o)) ?_
  exact matmul_lin_apply _ _ r o

/-- The payload at a block index given whole: its two coordinates name the rows of the operands. -/
theorem pay_lin_at (x0 : Vec Ideal S2048x512 .f32) (x1 : Vec Ideal S512x512 .f32) (x2 : Vec Ideal S1x512 .f32) (y : S2048x512.Idx) :
    k0_pay1 (F := Ideal) x0 x1 x2 y
      = (∑ k : Fin 512, x0 (ix2 (⟨(y 0).val, idx2_lt0 y⟩ : Fin 2048) k) * x1 (ix2 (⟨(y 1).val, idx2_lt1 y⟩ : Fin 512) k))
        + x2 (ix2 (0 : Fin 1) (⟨(y 1).val, idx2_lt1 y⟩ : Fin 512)) := by
  obtain ⟨r, o, rfl⟩ : ∃ (r : Fin 2048) (o : Fin 512), y = ix2 r o := ⟨y 0, y 1, eq_ix2 y⟩
  exact pay_lin_apply x0 x1 x2 r o

/-! ## From blocks to the array -/

/-- The region's result as ONE function of the arrays it finds: the linear layer, entry by entry. -/
def lin (X : S16384x512.Idx → EReal) (W : S512x512.Idx → EReal) (B : S1x512.Idx → EReal) : S16384x512.Idx → EReal :=
  fun i => (∑ k : Fin 512, X (ix2 (⟨(i 0).val, idx2_lt0 i⟩ : Fin 16384) k) * W (ix2 (⟨(i 1).val, idx2_lt1 i⟩ : Fin 512) k))
    + B (ix2 (0 : Fin 1) (⟨(i 1).val, idx2_lt1 i⟩ : Fin 512))

/-- The index maps, decided over the grid: X's and the output's blocks are block t of the rows; W and the bias row are
    staged whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- X's block at point t is rows 2048·t … of X. -/
theorem xblk_apply (c : Dev nD) (t : Fin cfg0.N) (y : S2048x512.Idx) (i : S16384x512.Idx)
    (h0 : (i 0).val = 2048 * t.val + (y 0).val) (h1 : (i 1).val = (y 1).val) :
    (iblk0 (F := Ideal) V c 0 t : Vec Ideal S2048x512 .f32) y = (V c main_arg0 : S16384x512.Idx → EReal) i := by
  obtain ⟨e0, e1, -⟩ := idx_facts0 t
  unfold iblk0
  rw [View.read_apply]
  show V c main_arg0 (((cfg0.win 0).blk t).view.emb y) = V c main_arg0 i
  refine congrArg (V c main_arg0) (funext fun a => Fin.ext ?_)
  match a with
  | ⟨0, _⟩ => show win0_0.index t (0 : Fin 2) * 2048 + 1 * (y 0).val = (i 0).val; omega
  | ⟨1, _⟩ => show win0_0.index t (1 : Fin 2) * 512 + 1 * (y 1).val = (i 1).val; omega

/-- W's block at every point is W. -/
theorem wblk_apply (c : Dev nD) (t : Fin cfg0.N) (y : S512x512.Idx) :
    (iblk0 (F := Ideal) V c 1 t : Vec Ideal S512x512 .f32) y = (V c main_arg2 : S512x512.Idx → EReal) y := by
  obtain ⟨-, -, e2, e3, -⟩ := idx_facts0 t
  unfold iblk0
  rw [View.read_apply]
  show V c main_arg2 (((cfg0.win 1).blk t).view.emb y) = V c main_arg2 y
  refine congrArg (V c main_arg2) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The bias row's block at every point is the bias row. -/
theorem bblk_apply (c : Dev nD) (t : Fin cfg0.N) (y : S1x512.Idx) :
    (iblk0 (F := Ideal) V c 2 t : Vec Ideal S1x512 .f32) y = (V c main_v0 : S1x512.Idx → EReal) y := by
  obtain ⟨-, -, -, -, e4, e5, -⟩ := idx_facts0 t
  unfold iblk0
  rw [View.read_apply]
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- WHAT POINT t WRITES BACK is block t of the linear layer of the arrays the region finds. -/
theorem flushed0_eq (c : Dev nD) (t : Fin cfg0.N) :
    (dat0 (F := Ideal) V c).flushed 3 t
      = ((cfg0.win 3).blk t).view.read (Elt Ideal) (lin (V c main_arg0) (V c main_arg2) (V c main_v0)) := by
  show (cfg0.win 3).cut (grid0.coords t) ((dat0 (F := Ideal) V c).after 3 t) = _
  rw [after0_3]
  unfold out0_3
  rw [View.canon_unit_zero zero_off2]
  simp only [View.ld_unit_zero (S := S2048x512) zero_off2, View.ld_unit_zero (S := S512x512) zero_off2, View.ld_unit_zero (S := S1x512) zero_off2]
  obtain ⟨-, -, -, -, -, -, e6, e7⟩ := idx_facts0 t
  funext j
  refine (pay_lin_at (iblk0 V c 0 t) (iblk0 V c 1 t) (iblk0 V c 2 t) j).trans ?_
  show _ = lin (V c main_arg0) (V c main_arg2) (V c main_v0) (((cfg0.win 3).blk t).view.emb j)
  unfold lin
  refine congrArg₂ (· + ·) (Finset.sum_congr rfl fun k _ => congrArg₂ (· * ·) ?_ ?_) ?_
  · refine xblk_apply V c t _ _ ?_ rfl
    show win0_3.index t (0 : Fin 2) * 2048 + 1 * (j 0).val = 2048 * t.val + (j 0).val
    omega
  · refine (wblk_apply V c t _).trans (congrArg (V c main_arg2) (funext fun a => Fin.ext ?_))
    match a with
    | ⟨0, _⟩ => show (j 1).val = win0_3.index t (1 : Fin 2) * 512 + 1 * (j 1).val; omega
    | ⟨1, _⟩ => rfl
  · refine (bblk_apply V c t _).trans (congrArg (V c main_v0) (funext fun a => Fin.ext ?_))
    match a with
    | ⟨0, _⟩ => rfl
    | ⟨1, _⟩ => show (j 1).val = win0_3.index t (1 : Fin 2) * 512 + 1 * (j 1).val; omega

/-- An index of the output array is in point t's block iff each coordinate is in the block's range on its axis. -/
theorem mem_blk0 (t : Fin cfg0.N) (i : S16384x512.Idx) :
    i ∈ ((cfg0.win 3).blk t).view.set
      ↔ ∀ a : Fin 2, win0_3.index t a * S2048x512.size a ≤ (i a).val ∧ (i a).val < win0_3.index t a * S2048x512.size a + S2048x512.size a := by
  show i ∈ ((View.whole main_v1).slice (win0_3.rect t)).set ↔ _
  rw [View.set_slice_whole, Rect.mem_set_unit]
  exact Iff.rfl

/-- Every block number below eight is a point of the grid. -/
theorem pt_onto0 : ∀ q : Fin 8, ∃ t : Fin cfg0.N, t.val = q.val :=
  (by decide +kernel : ∀ q : Fin 8, ∃ t : Fin grid0.N, t.val = q.val)

/-- THE COVER: row v of the output lies in the block of point v / 2048, which writes back. -/
theorem cover0 (i : S16384x512.Idx) :
    ∃ t : Fin cfg0.N, (cfg0.win 3).flush t = true ∧ i ∈ ((cfg0.win 3).blk t).view.set := by
  have hi0 : (i 0).val < 16384 := idx2_lt0 i
  have hi1 : (i 1).val < 512 := idx2_lt1 i
  obtain ⟨t, ht⟩ := pt_onto0 ⟨(i 0).val / 2048, by omega⟩
  have ht' : t.val = (i 0).val / 2048 := ht
  obtain ⟨-, -, -, -, -, -, e6, e7⟩ := idx_facts0 t
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- THE ARRAY after the eight write-backs: the linear layer of the arrays the region finds. -/
theorem arr0_eq (c : Dev nD) :
    (dat0 (F := Ideal) V c).arrAt 3 cfg0.N = lin (V c main_arg0) (V c main_arg2) (V c main_v0) :=
  (dat0 (F := Ideal) V c).arrAt_eq_of_cover 3 (lin (V c main_arg0) (V c main_arg2) (V c main_v0))
    (fun t _ => flushed0_eq V c t) cover0

/-- After the region's eight write-backs the output array holds, at (v, o), row v of X against row o of W plus the bias
    row's entry o. -/
theorem final0 (c : Dev nD) (v : Fin 16384) (o : Fin 512) :
    (dat0 (F := Ideal) V c).arrAt 3 cfg0.N (ix2 v o)
      = Cert.Spec.theta (fun a k => V c main_arg0 (ix2 a k)) (fun a k => V c main_arg2 (ix2 a k))
          (fun a => V c main_v0 (ix2 (0 : Fin 1) a)) v o := by
  rw [arr0_eq]
  rfl

end Cert.KernelIdeal.Hand

end
-- ==== Proof.Ideal.Val1.lean ====
/- What region 1 leaves in its output array: the vertex-to-edge stage of H and of the features it is handed. -/
import proofs.«146423_j40303973106024_1_alg».proof.Proof.Ideal.Region1
import proofs.«146423_j40303973106024_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered, at the ideal instance
variable (V : (c : Dev nD) → (b : Ref sig .tc) → Buf (Elt Ideal) ((c : Thread nD τ).loc b))

namespace Val1

/-! ## The matmul's operand indices, axis by axis -/

theorem dotL_0 (i : S512x2048.Idx) (q : dot_S1024x512_S1024x2048_S512x2048_0_0_1_1_n_n.contr.Idx) :
    (dot_S1024x512_S1024x2048_S512x2048_0_0_1_1_n_n.lhsIdx i q 0).val = (q ⟨0, by decide⟩).val :=
  dot_S1024x512_S1024x2048_S512x2048_0_0_1_1_n_n.lhsIdx_val_of_single rfl i q
theorem dotL_1 (i : S512x2048.Idx) (q : dot_S1024x512_S1024x2048_S512x2048_0_0_1_1_n_n.contr.Idx) :
    (dot_S1024x512_S1024x2048_S512x2048_0_0_1_1_n_n.lhsIdx i q 1).val = (i 0).val := by
  unfold DotDims.lhsIdx
  rw [dif_neg (show ¬(1 : Fin S1024x512.rank) ∈ dot_S1024x512_S1024x2048_S512x2048_0_0_1_1_n_n.lhsBatch by decide), dif_pos (show (1 : Fin S1024x512.rank) ∈ dot_S1024x512_S1024x2048_S512x2048_0_0_1_1_n_n.lhsNonContracting by decide)]
  rfl
theorem dotR_0 (i : S512x2048.Idx) (q : dot_S1024x512_S1024x2048_S512x2048_0_0_1_1_n_n.contr.Idx) :
    (dot_S1024x512_S1024x2048_S512x2048_0_0_1_1_n_n.rhsIdx i q 0).val = (q ⟨0, by decide⟩).val :=
  dot_S1024x512_S1024x2048_S512x2048_0_0_1_1_n_n.rhsIdx_val_of_single rfl i q
theorem dotR_1 (i : S512x2048.Idx) (q : dot_S1024x512_S1024x2048_S512x2048_0_0_1_1_n_n.contr.Idx) :
    (dot_S1024x512_S1024x2048_S512x2048_0_0_1_1_n_n.rhsIdx i q 1).val = (i 1).val := by
  unfold DotDims.rhsIdx
  rw [dif_neg (show ¬(1 : Fin S1024x2048.rank) ∈ dot_S1024x512_S1024x2048_S512x2048_0_0_1_1_n_n.rhsBatch by decide), dif_pos (show (1 : Fin S1024x2048.rank) ∈ dot_S1024x512_S1024x2048_S512x2048_0_0_1_1_n_n.rhsNonContracting by decide)]
  rfl

/-! ## The payloads at an index -/

/-- The product accumulator's step: what was there plus the block's contraction over its 1024 vertices. -/
theorem pay3_apply (h : FVec Ideal S1024x2048 .f32) (x : FVec Ideal S1024x512 .bf16) (acc : FVec Ideal S512x2048 .f32)
    (o : Fin 512) (e : Fin 2048) :
    k1_pay3 h x acc (ix2 o e) = acc (ix2 o e) + ∑ r : Fin 1024, x (ix2 r o) * h (ix2 r e) := by
  unfold k1_pay3
  simp only [shapeCast_self]
  rw [addf_apply]
  refine congrArg (acc (ix2 o e) + ·) ?_
  simp only [matmul]
  rw [Ideal.matmul_constant_zero_apply, ← Equiv.sum_comp (contrEquiv1 dot_S1024x512_S1024x2048_S512x2048_0_0_1_1_n_n 1024 rfl rfl).symm]
  refine Finset.sum_congr rfl fun k _ => ?_
  have hk := contrEquiv1_symm_val dot_S1024x512_S1024x2048_S512x2048_0_0_1_1_n_n 1024 rfl rfl k
  have el : dot_S1024x512_S1024x2048_S512x2048_0_0_1_1_n_n.lhsIdx (ix2 o e) ((contrEquiv1 dot_S1024x512_S1024x2048_S512x2048_0_0_1_1_n_n 1024 rfl rfl).symm k) = ix2 k o := funext fun a => Fin.ext (by
    match a with
    | ⟨0, _⟩ => exact (dotL_0 _ _).trans hk
    | ⟨1, _⟩ => exact dotL_1 _ _)
  have er : dot_S1024x512_S1024x2048_S512x2048_0_0_1_1_n_n.rhsIdx (ix2 o e) ((contrEquiv1 dot_S1024x512_S1024x2048_S512x2048_0_0_1_1_n_n 1024 rfl rfl).symm k) = ix2 k e := funext fun a => Fin.ext (by
    match a with
    | ⟨0, _⟩ => exact (dotR_0 _ _).trans hk
    | ⟨1, _⟩ => exact dotR_1 _ _)
  rw [el, er]
  rfl

/-- The degree scratch's step: what was there plus the block's column sum. -/
theorem pay4_apply (h : FVec Ideal S1024x2048 .f32) (d : FVec Ideal S1x2048 .f32) (u : Fin 1) (e : Fin 2048) :
    k1_pay4 h d (ix2 u e) = d (ix2 u e) + ∑ r : Fin 1024, h (ix2 r e) := by
  unfold k1_pay4
  simp only [shapeCast_self]
  rw [addf_apply]
  refine congrArg (d (ix2 u e) + ·) ?_
  rw [shapeCast_a_1a_apply]
  refine (Ideal.multiReduction_add_single h 0x00000000#32 reduces_S1024x2048_S2048 (.inl rfl) rfl (ix1 e)).trans ?_
  exact Finset.sum_congr rfl fun k _ => congrArg h (funext fun a => Fin.ext (by
    match a with
    | ⟨0, _⟩ => rfl
    | ⟨1, _⟩ => rfl))

/-- The reset values: zero everywhere. -/
theorem pay1_apply (i : S512x2048.Idx) : (k1_pay1 (F := Ideal)) i = 0 := by
  unfold k1_pay1
  simp only [shapeCast_self]
  exact Ideal.ofBits_zero_f32
theorem pay2_apply (i : S1x2048.Idx) : (k1_pay2 (F := Ideal)) i = 0 := by
  unfold k1_pay2
  simp only [shapeCast_self]
  exact Ideal.ofBits_zero_f32

/-- The epilogue: the accumulator times the safe reciprocal of the degree in its column. -/
theorem pay5_apply (d : FVec Ideal S1x2048 .f32) (acc : FVec Ideal S512x2048 .f32) (o : Fin 512) (e : Fin 2048) :
    (k1_pay5 (F := Ideal) d acc (ix2 o e) : EReal) = acc (ix2 o e) * Cert.Spec.recip (d (ix2 (0 : Fin 1) e)) := by
  unfold k1_pay5
  rw [truncf_apply, mulf_apply, broadcastTo_1b_ab_apply]
  rfl

/-! ## Where the blocks sit -/

theorem N1 : cfg1.N = 64 := by decide

/-- The index maps, decided once over the grid: at point t = 16·eb + vb the block of H is (vb, eb), the
    features' is (vb, 0), the output's is (0, eb). -/
theorem idx_facts1 : ∀ t : Fin cfg1.N,
    win1_0.index t (0 : Fin 2) = t.val % 16 ∧ win1_0.index t (1 : Fin 2) = t.val / 16
    ∧ win1_1.index t (0 : Fin 2) = t.val % 16 ∧ win1_1.index t (1 : Fin 2) = 0
    ∧ win1_2.index t (0 : Fin 2) = 0 ∧ win1_2.index t (1 : Fin 2) = t.val / 16 :=
  (by decide +kernel : ∀ t : Fin grid1.N, _)

/-- H and the features as functions of two naturals (zero off the arrays), so that sums over vertex blocks can be
    written over ranges. -/
def hN (c : Dev nD) (a b : ℕ) : EReal :=
  if h : a < 16384 ∧ b < 8192 then V c main_arg1 (ix2 ⟨a, h.1⟩ ⟨b, h.2⟩) else 0
def xN (c : Dev nD) (a k : ℕ) : EReal :=
  if h : a < 16384 ∧ k < 512 then V c main_v1 (ix2 ⟨a, h.1⟩ ⟨k, h.2⟩) else 0

/-- H and the features as the specification takes them: by vertex and edge, by vertex and channel. -/
abbrev Hh (c : Dev nD) : Fin 16384 → Fin 8192 → EReal := fun a e' => V c main_arg1 (ix2 a e')
abbrev Xx (c : Dev nD) : Fin 16384 → Fin 512 → EReal := fun a k => V c main_v1 (ix2 a k)

theorem hN_val (c : Dev nD) (a : Fin 16384) (b : Fin 8192) : hN V c a.val b.val = Hh V c a b := by
  unfold hN; rw [dif_pos ⟨a.isLt, b.isLt⟩]
theorem xN_val (c : Dev nD) (a : Fin 16384) (k : Fin 512) : xN V c a.val k.val = Xx V c a k := by
  unfold xN; rw [dif_pos ⟨a.isLt, k.isLt⟩]

/-- The block of H staged at point t is rows 1024·vb …, columns 2048·eb … of H. -/
theorem iblk0_apply (c : Dev nD) (t : Fin cfg1.N) (r : Fin 1024) (e : Fin 2048) :
    iblk1 V c 0 t (ix2 r e) = hN V c (1024 * (t.val % 16) + r.val) (2048 * (t.val / 16) + e.val) := by
  obtain ⟨e0, e1, -, -, -, -⟩ := idx_facts1 t
  have ht : t.val < 64 := N1 ▸ t.isLt
  have hr := r.isLt
  have he := e.isLt
  unfold hN
  rw [dif_pos ⟨by omega, by omega⟩]
  unfold iblk1
  rw [View.read_apply]
  show V c main_arg1 _ = V c main_arg1 _
  congr 1
  funext x
  apply Fin.ext
  match x with
  | ⟨0, _⟩ => show win1_0.index t (0 : Fin 2) * 1024 + 1 * r.val = 1024 * (t.val % 16) + r.val; rw [e0]; omega
  | ⟨1, _⟩ => show win1_0.index t (1 : Fin 2) * 2048 + 1 * e.val = 2048 * (t.val / 16) + e.val; rw [e1]; omega

/-- The block of the features staged at point t is rows 1024·vb … of them, all 512 channels. -/
theorem iblk1_apply (c : Dev nD) (t : Fin cfg1.N) (r : Fin 1024) (o : Fin 512) :
    iblk1 V c 1 t (ix2 r o) = xN V c (1024 * (t.val % 16) + r.val) o.val := by
  obtain ⟨-, -, e2, e3, -, -⟩ := idx_facts1 t
  have ht : t.val < 64 := N1 ▸ t.isLt
  have hr := r.isLt
  have ho := o.isLt
  unfold xN
  rw [dif_pos ⟨by omega, by omega⟩]
  unfold iblk1
  rw [View.read_apply]
  show V c main_v1 _ = V c main_v1 _
  congr 1
  funext x
  apply Fin.ext
  match x with
  | ⟨0, _⟩ => show win1_1.index t (0 : Fin 2) * 1024 + 1 * r.val = 1024 * (t.val % 16) + r.val; rw [e2]; omega
  | ⟨1, _⟩ => show win1_1.index t (1 : Fin 2) * 512 + 1 * o.val = o.val; rw [e3]; omega

/-! ## Sixteen blocks of 1024 are the 16384 vertices -/

theorem sum_vertices {M : Type*} [AddCommMonoid M] (f : ℕ → M) :
    ∑ v : Fin 16384, f v.val = ∑ s ∈ Finset.range 16, ∑ r : Fin 1024, f (1024 * s + r.val) := by
  have e : ∑ v : Fin (16 * 1024), f v.val = ∑ p : Fin 16 × Fin 1024, f (finProdFinEquiv p).val :=
    (Equiv.sum_comp finProdFinEquiv (fun v : Fin (16 * 1024) => f v.val)).symm
  rw [← Fin.sum_univ_eq_sum_range (fun s => ∑ r : Fin 1024, f (1024 * s + r.val)) 16]
  refine e.trans ?_
  rw [Fintype.sum_prod_type]
  refine Finset.sum_congr rfl fun s _ => Finset.sum_congr rfl fun r _ => ?_
  show f (r.val + 1024 * s.val) = f (1024 * s.val + r.val)
  rw [Nat.add_comm]

/-! ## The two scratch buffers inside a run -/

/-- At the first point of a run both scratch buffers are reset, then take the point's addends. -/
theorem acc_first (c : Dev nD) (t : Fin cfg1.N) (h : t.val % 16 = 0) (o : Fin 512) (e : Fin 2048) :
    (accAt1 V c t.val t.isLt).1 (ix2 o e)
      = ∑ r : Fin 1024, xN V c (1024 * (t.val % 16) + r.val) o.val * hN V c (1024 * (t.val % 16) + r.val) (2048 * (t.val / 16) + e.val)
    ∧ (accAt1 V c t.val t.isLt).2 (ix2 (0 : Fin 1) e)
      = ∑ r : Fin 1024, hN V c (1024 * (t.val % 16) + r.val) (2048 * (t.val / 16) + e.val) := by
  rw [accAt1_first V c t h]
  constructor
  · refine (pay3_apply _ _ _ o e).trans ?_
    rw [pay1_apply, zero_add]
    refine Finset.sum_congr rfl fun r _ => ?_
    rw [iblk1_apply, iblk0_apply]
  · refine (pay4_apply _ _ 0 e).trans ?_
    rw [pay2_apply, zero_add]
    refine Finset.sum_congr rfl fun r _ => ?_
    rw [iblk0_apply]

/-- At a later point they take the point's addends over what the point before left. -/
theorem acc_next (c : Dev nD) (t : Fin cfg1.N) (h : ¬ t.val % 16 = 0) (o : Fin 512) (e : Fin 2048) :
    (accAt1 V c t.val t.isLt).1 (ix2 o e)
      = (accAt1 V c (t.val - 1) (Nat.lt_of_le_of_lt (Nat.sub_le _ _) t.isLt)).1 (ix2 o e)
        + ∑ r : Fin 1024, xN V c (1024 * (t.val % 16) + r.val) o.val * hN V c (1024 * (t.val % 16) + r.val) (2048 * (t.val / 16) + e.val)
    ∧ (accAt1 V c t.val t.isLt).2 (ix2 (0 : Fin 1) e)
      = (accAt1 V c (t.val - 1) (Nat.lt_of_le_of_lt (Nat.sub_le _ _) t.isLt)).2 (ix2 (0 : Fin 1) e)
        + ∑ r : Fin 1024, hN V c (1024 * (t.val % 16) + r.val) (2048 * (t.val / 16) + e.val) := by
  rw [accAt1_next V c t h]
  constructor
  · refine (pay3_apply _ _ _ o e).trans (congrArg (_ + ·) ?_)
    refine Finset.sum_congr rfl fun r _ => ?_
    rw [iblk1_apply, iblk0_apply]
  · refine (pay4_apply _ _ 0 e).trans (congrArg (_ + ·) ?_)
    refine Finset.sum_congr rfl fun r _ => ?_
    rw [iblk0_apply]

/-- THE INVARIANT at point n = 16·eb + vb, for channel o and column e of the edge block: the accumulator holds the
    contraction over the vertex blocks 0 … vb, the degree scratch the column sums over them. -/
def accInv (c : Dev nD) (o : Fin 512) (e : Fin 2048) (n : ℕ) (hn : n < cfg1.N) : Prop :=
  (accAt1 V c n hn).1 (ix2 o e)
      = ∑ s ∈ Finset.range (n % 16 + 1), ∑ r : Fin 1024,
          xN V c (1024 * s + r.val) o.val * hN V c (1024 * s + r.val) (2048 * (n / 16) + e.val)
    ∧ (accAt1 V c n hn).2 (ix2 (0 : Fin 1) e)
      = ∑ s ∈ Finset.range (n % 16 + 1), ∑ r : Fin 1024, hN V c (1024 * s + r.val) (2048 * (n / 16) + e.val)

theorem accInv_first (c : Dev nD) (o : Fin 512) (e : Fin 2048) (t : Fin cfg1.N) (h : t.val % 16 = 0) :
    accInv V c o e t.val t.isLt := by
  obtain ⟨h1, h2⟩ := acc_first V c t h o e
  unfold accInv
  refine ⟨h1.trans ?_, h2.trans ?_⟩
  · rw [h, Finset.sum_range_succ, Finset.sum_range_zero, zero_add]
  · rw [h, Finset.sum_range_succ, Finset.sum_range_zero, zero_add]

theorem accInv_next (c : Dev nD) (o : Fin 512) (e : Fin 2048) (t : Fin cfg1.N) (h : ¬ t.val % 16 = 0)
    (ih : accInv V c o e (t.val - 1) (Nat.lt_of_le_of_lt (Nat.sub_le _ _) t.isLt)) :
    accInv V c o e t.val t.isLt := by
  obtain ⟨h1, h2⟩ := acc_next V c t h o e
  unfold accInv at ih ⊢
  obtain ⟨i1, i2⟩ := ih
  have hm : (t.val - 1) % 16 + 1 = t.val % 16 := by omega
  have hd : (t.val - 1) / 16 = t.val / 16 := by omega
  refine ⟨h1.trans ?_, h2.trans ?_⟩
  · rw [i1, hm, hd, Finset.sum_range_succ]
  · rw [i2, hm, hd, Finset.sum_range_succ]

theorem accInv_all (c : Dev nD) (o : Fin 512) (e : Fin 2048) : ∀ (n : ℕ) (hn : n < cfg1.N), accInv V c o e n hn := by
  intro n
  induction n with
  | zero => intro hn; exact accInv_first V c o e ⟨0, hn⟩ rfl
  | succ n ih =>
    intro hn
    by_cases h0 : (n + 1) % 16 = 0
    · exact accInv_first V c o e ⟨n + 1, hn⟩ h0
    · exact accInv_next V c o e ⟨n + 1, hn⟩ h0 (ih (Nat.lt_of_succ_lt hn))

/-! ## The region's result as one function of the entry arrays -/

/-- The vertex-to-edge stage of H and the features as the region finds them, as contents of the output array. -/
def Gw (c : Dev nD) : Buf (Elt Ideal) ((c : Thread nD τ).loc main_v2) := fun (i : S512x8192.Idx) =>
  Cert.Spec.v2e (fun a e' => V c main_arg1 (ix2 a e')) (fun a k => V c main_v1 (ix2 a k))
    ⟨(i 0).val, idx2_lt0 (n0 := 512) (n1 := 8192) i⟩ ⟨(i 1).val, idx2_lt1 (n0 := 512) (n1 := 8192) i⟩

/-- At the last point of a run the body stores, at (p, q) of the output block, the stage at channel p and edge
    2048·eb + q: the sums over the sixteen vertex blocks are the sums over all vertices. -/
theorem out_apply (c : Dev nD) (t : Fin cfg1.N) (h15 : t.val % 16 = 15) (p : Fin 512) (q : Fin 2048)
    (a : Fin 512) (b : Fin 8192) (ha : a.val = p.val) (hb : b.val = 2048 * (t.val / 16) + q.val) :
    (k1_pay5 (F := Ideal) (accAt1 V c t.val t.isLt).2 (accAt1 V c t.val t.isLt).1 (ix2 p q) : EReal)
      = Cert.Spec.v2e (fun a e' => V c main_arg1 (ix2 a e')) (fun a k => V c main_v1 (ix2 a k)) a b := by
  obtain ⟨i1, i2⟩ := accInv_all V c p q t.val t.isLt
  have h16 : t.val % 16 + 1 = 16 := by omega
  refine (pay5_apply _ _ p q).trans ?_
  rw [i1, i2, h16]
  show _ = (∑ v : Fin 16384, Xx V c v a * Hh V c v b) * Cert.Spec.recip (∑ v : Fin 16384, Hh V c v b)
  have e1 : ∑ v : Fin 16384, Xx V c v a * Hh V c v b
      = ∑ s ∈ Finset.range 16, ∑ r : Fin 1024, xN V c (1024 * s + r.val) a.val * hN V c (1024 * s + r.val) b.val := by
    rw [← sum_vertices (fun n => xN V c n a.val * hN V c n b.val)]
    exact Finset.sum_congr rfl fun v _ => by rw [xN_val, hN_val]
  have e2 : ∑ v : Fin 16384, Hh V c v b
      = ∑ s ∈ Finset.range 16, ∑ r : Fin 1024, hN V c (1024 * s + r.val) b.val := by
    rw [← sum_vertices (fun n => hN V c n b.val)]
    exact Finset.sum_congr rfl fun v _ => by rw [hN_val]
  rw [e1, e2, ha, hb]

/-- WHAT A FLUSHING POINT WRITES BACK is its block of that one function. -/
theorem flushed_eq (c : Dev nD) (t : Fin cfg1.N) (hf : (cfg1.win 2).flush t = true) :
    (dat1 (F := Ideal) V c).flushed 2 t = ((cfg1.win 2).blk t).view.read (Elt Ideal) (Gw V c) := by
  have h15 : t.val % 16 = 15 := (flush1_2 t).mp hf
  obtain ⟨-, -, -, -, e4, e5⟩ := idx_facts1 t
  show (cfg1.win 2).cut (grid1.coords t) ((dat1 (F := Ideal) V c).after 2 t) = _
  rw [after1_2]
  refine funext fun (j : S512x2048.Idx) => ?_
  obtain ⟨p, q, rfl⟩ : ∃ (p : Fin 512) (q : Fin 2048), j = ix2 p q := ⟨j 0, j 1, eq_ix2 j⟩
  rw [View.read_apply, cast_eq]
  show (k1_pay5 (F := Ideal) _ _ (ix2 p q) : EReal) = _
  unfold Gw
  show _ = Cert.Spec.v2e _ _ ⟨_, _⟩ ⟨_, _⟩
  exact out_apply V c t h15 p q _ _
    (by show win1_2.index t (0 : Fin 2) * 512 + 1 * p.val = p.val; rw [e4]; omega)
    (by show win1_2.index t (1 : Fin 2) * 2048 + 1 * q.val = 2048 * (t.val / 16) + q.val; rw [e5]; omega)

/-- An index of the output array is in point t's block iff each coordinate is in the block's range on its axis. -/
theorem mem_blk (t : Fin cfg1.N) (i : S512x8192.Idx) :
    i ∈ ((cfg1.win 2).blk t).view.set
      ↔ ∀ a : Fin 2, win1_2.index t a * S512x2048.size a ≤ (i a).val
          ∧ (i a).val < win1_2.index t a * S512x2048.size a + S512x2048.size a := by
  show i ∈ ((View.whole main_v2).slice (win1_2.rect t)).set ↔ _
  rw [View.set_slice_whole, Rect.mem_set_unit]
  exact Iff.rfl

/-- Every index of the output array is in the block of the last point of its edge block's run. -/
theorem cover (i : S512x8192.Idx) :
    ∃ t : Fin cfg1.N, (cfg1.win 2).flush t = true ∧ i ∈ ((cfg1.win 2).blk t).view.set := by
  have h0 : (i 0).val < 512 := idx2_lt0 i
  have h1 : (i 1).val < 8192 := idx2_lt1 i
  obtain ⟨t, ht⟩ : ∃ t : Fin cfg1.N, t.val = 16 * ((i 1).val / 2048) + 15 :=
    ⟨⟨16 * ((i 1).val / 2048) + 15, by rw [N1]; omega⟩, rfl⟩
  obtain ⟨-, -, -, -, e4, e5⟩ := idx_facts1 t
  refine ⟨t, (flush1_2 t).mpr (by omega), ?_⟩
  rw [mem_blk]
  intro a
  match a with
  | ⟨0, _⟩ =>
    show win1_2.index t (0 : Fin 2) * 512 ≤ (i 0).val ∧ (i 0).val < win1_2.index t (0 : Fin 2) * 512 + 512
    rw [e4]; omega
  | ⟨1, _⟩ =>
    show win1_2.index t (1 : Fin 2) * 2048 ≤ (i 1).val ∧ (i 1).val < win1_2.index t (1 : Fin 2) * 2048 + 2048
    rw [e5]; omega

/-- So after the region's write-backs the output array holds that function. -/
theorem final_arr (c : Dev nD) : (dat1 (F := Ideal) V c).arrAt 2 cfg1.N = Gw V c :=
  (dat1 (F := Ideal) V c).arrAt_eq_of_cover 2 (Gw V c) (fun t hf => flushed_eq V c t hf) cover

end Val1

/-- After the region's write-backs the output array holds, at (o, e), the H-weighted sum over all vertices of channel o
    over hyperedge e's degree. -/
theorem final1 (c : Dev nD) (o : Fin 512) (e : Fin 8192) :
    (dat1 (F := Ideal) V c).arrAt 2 cfg1.N (ix2 o e)
      = Cert.Spec.v2e (fun a e' => V c main_arg1 (ix2 a e')) (fun a k => V c main_v1 (ix2 a k)) o e := by
  rw [Val1.final_arr]
  rfl

end Cert.KernelIdeal.Hand

end
-- ==== Proof.Ideal.Val2.lean ====
/- What region 2 leaves in its output array: the edge-to-vertex stage of H and of the edge features it is handed. -/
import proofs.«146423_j40303973106024_1_alg».proof.Proof.Ideal.Region2
import proofs.«146423_j40303973106024_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered, at the ideal instance
variable (V : (c : Dev nD) → (b : Ref sig .tc) → Buf (Elt Ideal) ((c : Thread nD τ).loc b))

namespace Val2

/-! ## Sums over the 8192 hyperedges, split into the four edge blocks of 2048 the grid walks -/

/-- Edge block `s`'s share of a sum over the hyperedges: the 2048 hyperedges 2048·s + j. -/
def chunk (f : Fin 8192 → EReal) (s : Fin 4) : EReal :=
  ∑ j : Fin 2048, f ⟨2048 * s.val + j.val, by have := s.isLt; have := j.isLt; omega⟩

/-- The same at a natural number: zero past the four blocks. -/
def chunkN (f : Fin 8192 → EReal) (s : ℕ) : EReal := if h : s < 4 then chunk f ⟨s, h⟩ else 0

theorem chunkN_of_lt (f : Fin 8192 → EReal) (s : ℕ) (h : s < 4) : chunkN f s = chunk f ⟨s, h⟩ := dif_pos h

/-- The sum over the first `n + 1` edge blocks. -/
def upTo (f : Fin 8192 → EReal) (n : ℕ) : EReal := ∑ s ∈ Finset.range (n + 1), chunkN f s

theorem upTo_zero (f : Fin 8192 → EReal) : upTo f 0 = chunkN f 0 := Finset.sum_range_one _

theorem upTo_succ (f : Fin 8192 → EReal) (n : ℕ) : upTo f (n + 1) = upTo f n + chunkN f (n + 1) :=
  Finset.sum_range_succ _ _

/-- The sum over all hyperedges is the sum of the four blocks' shares: hyperedge e is j + 2048·s with s = e / 2048. -/
theorem sum_eq_upTo (f : Fin 8192 → EReal) : ∑ e : Fin 8192, f e = upTo f 3 := by
  have e1 : ∑ e : Fin 8192, f e = ∑ p : Fin 4 × Fin 2048, f (finProdFinEquiv p) :=
    (Equiv.sum_comp (finProdFinEquiv : Fin 4 × Fin 2048 ≃ Fin (4 * 2048)) f).symm
  unfold upTo
  rw [e1, Fintype.sum_prod_type, Finset.sum_range]
  refine Finset.sum_congr rfl fun s _ => ?_
  rw [chunkN_of_lt f s.val s.isLt]
  unfold chunk
  refine Finset.sum_congr rfl fun j _ => ?_
  refine congrArg f (Fin.ext ?_)
  show j.val + 2048 * s.val = 2048 * s.val + j.val
  omega

/-! ## The matmul's operand indices: it contracts axis 1 of both operands -/

theorem lhs_dot2_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem lhs_dot2_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
theorem rhs_dot2_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem rhs_dot2_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- The product step at (r, o): what was there plus the block's 2048 products of H's row r against the features' row o. -/
theorem pay3_apply (h : FVec Ideal S1024x2048 .f32) (x : FVec Ideal S512x2048 .bf16) (a : FVec Ideal S1024x512 .f32)
    (r : Fin 1024) (o : Fin 512) :
    k2_pay3 (F := Ideal) h x a (ix2 r o) = a (ix2 r o) + ∑ j : Fin 2048, h (ix2 r j) * x (ix2 o j) := by
  unfold k2_pay3
  simp only [shapeCast_self]
  show a (ix2 r o) + FloatOps.matmul dot_S1024x2048_S512x2048_S1024x512_1_1_0_0_n_n none (truncf .bf16 h bitsLt_bf16_f32) x
      (constant (F := Ideal) S1024x512 .f32 0x00000000#32) (ix2 r o) = _
  refine congrArg (a (ix2 r o) + ·) ?_
  rw [Ideal.matmul_constant_zero_apply,
    ← Equiv.sum_comp (contrEquiv1 dot_S1024x2048_S512x2048_S1024x512_1_1_0_0_n_n 2048 rfl rfl).symm]
  refine Finset.sum_congr rfl fun k _ => ?_
  have hk := contrEquiv1_symm_val dot_S1024x2048_S512x2048_S1024x512_1_1_0_0_n_n 2048 rfl rfl k
  have el : dot_S1024x2048_S512x2048_S1024x512_1_1_0_0_n_n.lhsIdx (ix2 r o)
      ((contrEquiv1 dot_S1024x2048_S512x2048_S1024x512_1_1_0_0_n_n 2048 rfl rfl).symm k) = ix2 r k :=
    funext fun a => Fin.ext (by
      match a with
      | ⟨0, _⟩ => exact lhs_dot2_0 _ _
      | ⟨1, _⟩ => exact (lhs_dot2_1 _ _).trans hk)
  have er : dot_S1024x2048_S512x2048_S1024x512_1_1_0_0_n_n.rhsIdx (ix2 r o)
      ((contrEquiv1 dot_S1024x2048_S512x2048_S1024x512_1_1_0_0_n_n 2048 rfl rfl).symm k) = ix2 o k :=
    funext fun a => Fin.ext (by
      match a with
      | ⟨0, _⟩ => exact rhs_dot2_0 _ _
      | ⟨1, _⟩ => exact (rhs_dot2_1 _ _).trans hk)
  rw [el, er]
  rfl

/-! ## The column forms of a shape cast and a broadcast -/

/-- An `[a]` array cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The degree step at (r, 0): what was there plus the block's row sum of H. -/
theorem pay4_apply (h : FVec Ideal S1024x2048 .f32) (d : FVec Ideal S1024x1 .f32) (r : Fin 1024) :
    k2_pay4 (F := Ideal) h d (ix2 r (0 : Fin 1)) = d (ix2 r (0 : Fin 1)) + ∑ j : Fin 2048, h (ix2 r j) := by
  unfold k2_pay4
  simp only [shapeCast_self]
  refine congrArg (d (ix2 r (0 : Fin 1)) + ·) ?_
  refine (shapeCast_a_a1_apply _ shapeCasts_S1024_S1024x1 r (0 : Fin 1)).trans ?_
  refine (Ideal.multiReduction_add_single h _ reduces_S1024x2048_S1024 (.inl rfl) rfl (ix1 r)).trans ?_
  refine Finset.sum_congr rfl fun k _ => congrArg h (funext fun a => Fin.ext ?_)
  match a with
  | ⟨0, _⟩ => rfl
  | ⟨1, _⟩ => rfl

/-- The reset values are zero. -/
theorem pay1_apply (i : S1024x512.Idx) : k2_pay1 (F := Ideal) i = 0 := by
  unfold k2_pay1
  simp only [shapeCast_self]
  exact Ideal.ofBits_zero_f32

theorem pay2_apply (i : S1024x1.Idx) : k2_pay2 (F := Ideal) i = 0 := by
  unfold k2_pay2
  simp only [shapeCast_self]
  exact Ideal.ofBits_zero_f32

/-- The epilogue at (r, o): the product accumulator times the safe reciprocal of the degree at row r, clamped at zero. -/
theorem pay5_apply (d : FVec Ideal S1024x1 .f32) (a : FVec Ideal S1024x512 .f32) (r : Fin 1024) (o : Fin 512) :
    k2_pay5 (F := Ideal) d a (ix2 r o) = max (a (ix2 r o) * Cert.Spec.recip (d (ix2 r (0 : Fin 1)))) 0 := by
  unfold k2_pay5
  refine (congrArg₂ max (congrArg (a (ix2 r o) * ·) (broadcastTo_a1_ab_apply _ broadcasts_S1024x1_S1024x512 r o))
    Ideal.ofBits_zero_f32).trans ?_
  rfl

/-! ## The windows' blocks, read off the arrays -/

/-- The three index maps on the grid [16, 4], decided once: the vertex block is t / 4, the edge block t % 4. -/
theorem idx_facts2 : ∀ t : Fin cfg2.N,
    win2_0.index t (0 : Fin 2) = t.val / 4 ∧ win2_0.index t (1 : Fin 2) = t.val % 4
    ∧ win2_1.index t (0 : Fin 2) = 0 ∧ win2_1.index t (1 : Fin 2) = t.val % 4
    ∧ win2_2.index t (0 : Fin 2) = t.val / 4 ∧ win2_2.index t (1 : Fin 2) = 0 :=
  (by decide +kernel : ∀ t : Fin grid2.N, _)

/-- The two arrays the region reads — H and the edge features, transposed — and their blocks at point t, each at its
    literal shape. -/
abbrev harr (c : Dev nD) : Vec Ideal S16384x8192 .f32 := V c main_arg1
abbrev xarr (c : Dev nD) : Vec Ideal S512x8192 .bf16 := V c main_v2
abbrev hblk (c : Dev nD) (t : Fin cfg2.N) : Vec Ideal S1024x2048 .f32 := iblk2 V c 0 t
abbrev xblk (c : Dev nD) (t : Fin cfg2.N) : Vec Ideal S512x2048 .bf16 := iblk2 V c 1 t

/-- H's block at point t reads H at row 1024·(t / 4) + r, hyperedge 2048·(t % 4) + j. -/
theorem hblk_apply (c : Dev nD) (t : Fin cfg2.N) (r : Fin 1024) (j : Fin 2048) (v : Fin 16384) (e : Fin 8192)
    (hv : v.val = 1024 * (t.val / 4) + r.val) (he : e.val = 2048 * (t.val % 4) + j.val) :
    hblk V c t (ix2 r j) = harr V c (ix2 v e) := by
  obtain ⟨e0, e1, -, -, -, -⟩ := idx_facts2 t
  show V c main_arg1 (((cfg2.win 0).blk t).view.emb (ix2 r j)) = V c main_arg1 (ix2 v e)
  refine congrArg (V c main_arg1) (funext fun a => Fin.ext ?_)
  match a with
  | ⟨0, _⟩ => show win2_0.index t (0 : Fin 2) * 1024 + 1 * r.val = v.val; omega
  | ⟨1, _⟩ => show win2_0.index t (1 : Fin 2) * 2048 + 1 * j.val = e.val; omega

/-- The features' block at point t reads them at channel o, hyperedge 2048·(t % 4) + j. -/
theorem xblk_apply (c : Dev nD) (t : Fin cfg2.N) (o : Fin 512) (j : Fin 2048) (e : Fin 8192)
    (he : e.val = 2048 * (t.val % 4) + j.val) :
    xblk V c t (ix2 o j) = xarr V c (ix2 o e) := by
  obtain ⟨-, -, e2, e3, -, -⟩ := idx_facts2 t
  show V c main_v2 (((cfg2.win 1).blk t).view.emb (ix2 o j)) = V c main_v2 (ix2 o e)
  refine congrArg (V c main_v2) (funext fun a => Fin.ext ?_)
  match a with
  | ⟨0, _⟩ => show win2_1.index t (0 : Fin 2) * 512 + 1 * o.val = o.val; omega
  | ⟨1, _⟩ => show win2_1.index t (1 : Fin 2) * 2048 + 1 * j.val = e.val; omega

/-! ## The accumulation: after point t of a run the scratch buffers hold the sums over the edge blocks up to t's -/

/-- The summands at vertex v: H's row against the features' row o, and H's row itself. -/
abbrev prodRow (c : Dev nD) (v : Fin 16384) (o : Fin 512) : Fin 8192 → EReal :=
  fun e => harr V c (ix2 v e) * xarr V c (ix2 o e)
abbrev degRow (c : Dev nD) (v : Fin 16384) : Fin 8192 → EReal := fun e => harr V c (ix2 v e)

/-- Point t's 2048 products at (r, o) are edge block t % 4's share of vertex v's product sum, v = 1024·(t / 4) + r. -/
theorem blk_prod (c : Dev nD) (t : Fin cfg2.N) (r : Fin 1024) (o : Fin 512) (v : Fin 16384)
    (hv : v.val = 1024 * (t.val / 4) + r.val) :
    ∑ j : Fin 2048, hblk V c t (ix2 r j) * xblk V c t (ix2 o j) = chunkN (prodRow V c v o) (t.val % 4) := by
  rw [chunkN_of_lt _ _ (Nat.mod_lt _ (by decide))]
  unfold chunk
  refine Finset.sum_congr rfl fun j _ => ?_
  have hlt : 2048 * (t.val % 4) + j.val < 8192 := by have := j.isLt; omega
  show hblk V c t (ix2 r j) * xblk V c t (ix2 o j)
    = harr V c (ix2 v ⟨2048 * (t.val % 4) + j.val, hlt⟩) * xarr V c (ix2 o ⟨2048 * (t.val % 4) + j.val, hlt⟩)
  rw [hblk_apply V c t r j v ⟨2048 * (t.val % 4) + j.val, hlt⟩ hv rfl,
    xblk_apply V c t o j ⟨2048 * (t.val % 4) + j.val, hlt⟩ rfl]

/-- Point t's row sum at r is edge block t % 4's share of vertex v's degree. -/
theorem blk_deg (c : Dev nD) (t : Fin cfg2.N) (r : Fin 1024) (v : Fin 16384)
    (hv : v.val = 1024 * (t.val / 4) + r.val) :
    ∑ j : Fin 2048, hblk V c t (ix2 r j) = chunkN (degRow V c v) (t.val % 4) := by
  rw [chunkN_of_lt _ _ (Nat.mod_lt _ (by decide))]
  unfold chunk
  refine Finset.sum_congr rfl fun j _ => ?_
  have hlt : 2048 * (t.val % 4) + j.val < 8192 := by have := j.isLt; omega
  exact hblk_apply V c t r j v ⟨2048 * (t.val % 4) + j.val, hlt⟩ hv rfl

/-- At the first point of a run: zero plus the first edge block's share. -/
theorem acc_first (c : Dev nD) (t : Fin cfg2.N) (h : t.val % 4 = 0) (r : Fin 1024) (v : Fin 16384)
    (hv : v.val = 1024 * (t.val / 4) + r.val) :
    (∀ o : Fin 512, (accAt2 V c t.val t.isLt).1 (ix2 r o) = upTo (prodRow V c v o) (t.val % 4))
    ∧ (accAt2 V c t.val t.isLt).2 (ix2 r (0 : Fin 1)) = upTo (degRow V c v) (t.val % 4) := by
  rw [accAt2_first V c t h]
  dsimp only
  refine ⟨fun o => ?_, ?_⟩
  · refine (pay3_apply (hblk V c t) (xblk V c t) (k2_pay1 (F := Ideal)) r o).trans ?_
    rw [pay1_apply, zero_add, blk_prod V c t r o v hv, h, upTo_zero]
  · refine (pay4_apply (hblk V c t) (k2_pay2 (F := Ideal)) r).trans ?_
    rw [pay2_apply, zero_add, blk_deg V c t r v hv, h, upTo_zero]

/-- THE INVARIANT, by induction on the point: after point n, at row r, the product accumulator holds vertex v's
    products summed over the edge blocks 0 … n % 4 and the degree scratch H's row summed over the same. -/
theorem acc_inv (c : Dev nD) (n : ℕ) : ∀ (hn : n < cfg2.N) (r : Fin 1024) (v : Fin 16384),
    v.val = 1024 * (n / 4) + r.val →
    (∀ o : Fin 512, (accAt2 V c n hn).1 (ix2 r o) = upTo (prodRow V c v o) (n % 4))
    ∧ (accAt2 V c n hn).2 (ix2 r (0 : Fin 1)) = upTo (degRow V c v) (n % 4) := by
  induction n with
  | zero => intro hn r v hv; exact acc_first V c ⟨0, hn⟩ rfl r v hv
  | succ n ih =>
    intro hn r v hv
    by_cases h : (n + 1) % 4 = 0
    · exact acc_first V c ⟨n + 1, hn⟩ h r v hv
    · have hprev := ih (Nat.lt_of_succ_lt hn) r v (by omega)
      have hm : (n + 1) % 4 = n % 4 + 1 := by omega
      have key : accAt2 V c (n + 1) hn
          = (k2_pay3 (iblk2 V c 0 ⟨n + 1, hn⟩) (iblk2 V c 1 ⟨n + 1, hn⟩) (accAt2 V c n (Nat.lt_of_succ_lt hn)).1,
             k2_pay4 (iblk2 V c 0 ⟨n + 1, hn⟩) (accAt2 V c n (Nat.lt_of_succ_lt hn)).2) :=
        accAt2_next V c ⟨n + 1, hn⟩ h
      rw [key]
      dsimp only
      refine ⟨fun o => ?_, ?_⟩
      · refine (pay3_apply (hblk V c ⟨n + 1, hn⟩) (xblk V c ⟨n + 1, hn⟩) (accAt2 V c n (Nat.lt_of_succ_lt hn)).1 r o).trans ?_
        rw [hprev.1 o, blk_prod V c ⟨n + 1, hn⟩ r o v hv]
        show upTo (prodRow V c v o) (n % 4) + chunkN (prodRow V c v o) ((n + 1) % 4) = upTo (prodRow V c v o) ((n + 1) % 4)
        rw [hm, upTo_succ]
      · refine (pay4_apply (hblk V c ⟨n + 1, hn⟩) (accAt2 V c n (Nat.lt_of_succ_lt hn)).2 r).trans ?_
        rw [hprev.2, blk_deg V c ⟨n + 1, hn⟩ r v hv]
        show upTo (degRow V c v) (n % 4) + chunkN (degRow V c v) ((n + 1) % 4) = upTo (degRow V c v) ((n + 1) % 4)
        rw [hm, upTo_succ]

/-! ## From the blocks to the array -/

/-- The region's result as ONE function of the arrays it finds: the specification's edge-to-vertex stage. -/
def Gw (c : Dev nD) : Vec Ideal S16384x512 .f32 := fun i =>
  Cert.Spec.e2v (fun a e => V c main_arg1 (ix2 a e)) (fun k e => V c main_v2 (ix2 k e))
    ⟨(i 0).val, idx2_lt0 i⟩ ⟨(i 1).val, idx2_lt1 i⟩

theorem Gw_apply (c : Dev nD) (i : S16384x512.Idx) (v : Fin 16384) (o : Fin 512) (hv : (i 0).val = v.val)
    (ho : (i 1).val = o.val) :
    Gw V c i = Cert.Spec.e2v (fun a e => V c main_arg1 (ix2 a e)) (fun k e => V c main_v2 (ix2 k e)) v o := by
  have e0 : (⟨(i 0).val, idx2_lt0 i⟩ : Fin 16384) = v := Fin.ext hv
  have e1 : (⟨(i 1).val, idx2_lt1 i⟩ : Fin 512) = o := Fin.ext ho
  unfold Gw
  rw [e0, e1]

/-- WHAT A FLUSHING POINT WRITES BACK (the last point of a run, t % 4 = 3) is its block of `Gw`: the sums have run over
    all four edge blocks, that is over every hyperedge, and the epilogue is the specification's scaling and clamp. -/
theorem flushed2_eq (c : Dev nD) (t : Fin cfg2.N) (hf : (cfg2.win 2).flush t = true) :
    (dat2 (F := Ideal) V c).flushed 2 t = ((cfg2.win 2).blk t).view.read (Elt Ideal) (Gw V c) := by
  have h3 : t.val % 4 = 3 := (flush2_2 t).mp hf
  have hN : cfg2.N = 64 := N_2
  obtain ⟨-, -, -, -, e4, e5⟩ := idx_facts2 t
  show (cfg2.win 2).cut (grid2.coords t) ((dat2 (F := Ideal) V c).after 2 t) = _
  rw [after2_2]
  refine funext fun (y : S1024x512.Idx) => ?_
  obtain ⟨r, o, rfl⟩ : ∃ (r : Fin 1024) (o : Fin 512), y = ix2 r o := ⟨y 0, y 1, eq_ix2 y⟩
  have hvlt : 1024 * (t.val / 4) + r.val < 16384 := by have := t.isLt; have := r.isLt; omega
  obtain ⟨hp, hd⟩ := acc_inv V c t.val t.isLt r ⟨1024 * (t.val / 4) + r.val, hvlt⟩ rfl
  show k2_pay5 (F := Ideal) (accAt2 V c t.val t.isLt).2 (accAt2 V c t.val t.isLt).1 (ix2 r o)
    = Gw V c (((cfg2.win 2).blk t).view.emb (ix2 r o))
  refine (pay5_apply _ _ r o).trans ?_
  rw [hp o, hd, h3, ← sum_eq_upTo, ← sum_eq_upTo]
  symm
  exact Gw_apply V c _ ⟨1024 * (t.val / 4) + r.val, hvlt⟩ o
    (by show win2_2.index t (0 : Fin 2) * 1024 + 1 * r.val = 1024 * (t.val / 4) + r.val; omega)
    (by show win2_2.index t (1 : Fin 2) * 512 + 1 * o.val = o.val; omega)

/-- Every index of the output array is in the block of a flushing point: row v's is the last point of run v / 1024. -/
theorem cover2 (i : S16384x512.Idx) :
    ∃ t : Fin cfg2.N, (cfg2.win 2).flush t = true ∧ i ∈ ((cfg2.win 2).blk t).view.set := by
  have hi0 : (i 0).val < 16384 := idx2_lt0 i
  have hi1 : (i 1).val < 512 := idx2_lt1 i
  have hN : cfg2.N = 64 := N_2
  have htlt : 4 * ((i 0).val / 1024) + 3 < cfg2.N := by rw [hN]; omega
  obtain ⟨-, -, -, -, e4, e5⟩ := idx_facts2 ⟨4 * ((i 0).val / 1024) + 3, htlt⟩
  refine ⟨⟨4 * ((i 0).val / 1024) + 3, htlt⟩, (flush2_2 _).mpr (by show (4 * ((i 0).val / 1024) + 3) % 4 = 3; omega), ?_⟩
  show i ∈ ((View.whole main_v3).slice (win2_2.rect ⟨4 * ((i 0).val / 1024) + 3, htlt⟩)).set
  rw [View.set_slice_whole, Rect.mem_set_unit]
  intro a
  match a with
  | ⟨0, _⟩ =>
    show win2_2.index ⟨4 * ((i 0).val / 1024) + 3, htlt⟩ (0 : Fin 2) * 1024 ≤ (i 0).val
      ∧ (i 0).val < win2_2.index ⟨4 * ((i 0).val / 1024) + 3, htlt⟩ (0 : Fin 2) * 1024 + 1024
    rw [e4]
    show (4 * ((i 0).val / 1024) + 3) / 4 * 1024 ≤ (i 0).val ∧ (i 0).val < (4 * ((i 0).val / 1024) + 3) / 4 * 1024 + 1024
    omega
  | ⟨1, _⟩ =>
    show win2_2.index ⟨4 * ((i 0).val / 1024) + 3, htlt⟩ (1 : Fin 2) * 512 ≤ (i 1).val
      ∧ (i 1).val < win2_2.index ⟨4 * ((i 0).val / 1024) + 3, htlt⟩ (1 : Fin 2) * 512 + 512
    rw [e5]
    omega

end Val2

/-- After the region's write-backs the output array holds, at (v, o), the H-weighted sum over all hyperedges of channel o
    over vertex v's degree, clamped at zero. -/
theorem final2 (c : Dev nD) (v : Fin 16384) (o : Fin 512) :
    (dat2 (F := Ideal) V c).arrAt 2 cfg2.N (ix2 v o)
      = Cert.Spec.e2v (fun a e => V c main_arg1 (ix2 a e)) (fun k e => V c main_v2 (ix2 k e)) v o :=
  (congrFun ((dat2 (F := Ideal) V c).arrAt_eq_of_cover 2 (Val2.Gw V c) (Val2.flushed2_eq V c) Val2.cover2) (ix2 v o)).trans
    (Val2.Gw_apply V c (ix2 v o) v o rfl rfl)

end Cert.KernelIdeal.Hand

end
-- ==== Proof.Ideal.Value.lean ====
/- The result array of @main at the ideal instance, entry by entry: the three regions' stages composed through the
   contents each region is entered with. -/
import proofs.«146423_j40303973106024_1_alg».proof.Proof.Ideal.Run
import proofs.«146423_j40303973106024_1_alg».proof.Proof.Ideal.Val0
import proofs.«146423_j40303973106024_1_alg».proof.Proof.Ideal.Val1
import proofs.«146423_j40303973106024_1_alg».proof.Proof.Ideal.Val2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## What each region is entered with -/

/-- The host stretch writes only the bias row: the three arrays region 0 and the later regions read are as launched. -/
theorem V1_arg0 (c : Dev nD) : V1 m ρ c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
theorem V1_arg1 (c : Dev nD) : V1 m ρ c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))
theorem V1_arg2 (c : Dev nD) : V1 m ρ c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact StableHlo.devRef_ne_of_ne (by decide)))

/-- The bias row region 0 reads is the bias vector laid out as one row. -/
theorem V1_v0 (c : Dev nD) (a : Fin 512) :
    V1 m ρ c main_v0 (ix2 (0 : Fin 1) a) = m ((c : Thread nD τ).loc main_arg3) (ix1 a) := by
  have e : (V1 m ρ c main_v0 : S1x512.Idx → EReal) = shapeCast S1x512 (m ((c : Thread nD τ).loc main_arg3)) shapeCasts_S512_S1x512 := by
    show StableHlo.after hostOps0 (W0 m ρ c) (Proc.devRef .tc main_v0) = _
    dsimp only [hostOps0]
    after_results
    rfl
  rw [e]
  refine (shapeCast_addUnit_apply (![512] : Fin 1 → Nat) (m ((c : Thread nD τ).loc main_arg3)) shapeCasts_S512_S1x512 (ix2 (0 : Fin 1) a)).trans ?_
  exact congrArg _ (funext fun d => by match d with | ⟨0, _⟩ => rfl)

/-- Region 1 reads H as launched and the features region 0 wrote. -/
theorem V2_arg1 (c : Dev nD) : V2 m ρ c main_arg1 = m ((c : Thread nD τ).loc main_arg1) :=
  (W2_of_ne m ρ c main_arg1 (by decide)).trans (V1_arg1 m ρ c)
theorem V2_v1 (c : Dev nD) : V2 m ρ c main_v1 = (dat0 (V1 m ρ) c).arrAt 3 cfg0.N := W2_arr m ρ c 3

/-- Region 2 reads H as launched and the edge features region 1 wrote. -/
theorem V3_arg1 (c : Dev nD) : V3 m ρ c main_arg1 = m ((c : Thread nD τ).loc main_arg1) :=
  (W3_arr m ρ c 0).trans (((dat1 (V2 m ρ) c).arrAt_in 0 rfl _).trans ((A_eq1 (V2 m ρ) c 0).trans (V2_arg1 m ρ c)))
theorem V3_v2 (c : Dev nD) : V3 m ρ c main_v2 = (dat1 (V2 m ρ) c).arrAt 2 cfg1.N := W3_arr m ρ c 2

/-! ## The result -/

section
variable (c : Dev nD)

/-- The arrays region 0 reads, as functions of coordinates: the launch contents. -/
theorem X_at1 : (fun (a : Fin 16384) (k : Fin 512) => V1 m ρ c main_arg0 (ix2 a k)) = fun a k => m ((c : Thread nD τ).loc main_arg0) (ix2 a k) := by
  rw [V1_arg0 m ρ c]
theorem W_at1 : (fun (a : Fin 512) (k : Fin 512) => V1 m ρ c main_arg2 (ix2 a k)) = fun a k => m ((c : Thread nD τ).loc main_arg2) (ix2 a k) := by
  rw [V1_arg2 m ρ c]
theorem B_at1 : (fun (a : Fin 512) => V1 m ρ c main_v0 (ix2 (0 : Fin 1) a)) = fun a => m ((c : Thread nD τ).loc main_arg3) (ix1 a) :=
  funext fun a => V1_v0 m ρ c a
theorem H_at2 : (fun (a : Fin 16384) (e : Fin 8192) => V2 m ρ c main_arg1 (ix2 a e)) = fun a e => m ((c : Thread nD τ).loc main_arg1) (ix2 a e) := by
  rw [V2_arg1 m ρ c]
theorem H_at3 : (fun (a : Fin 16384) (e : Fin 8192) => V3 m ρ c main_arg1 (ix2 a e)) = fun a e => m ((c : Thread nD τ).loc main_arg1) (ix2 a e) := by
  rw [V3_arg1 m ρ c]

/-- The features region 1 reads are the linear layer of the launch contents. -/
theorem Xt_at2 : (fun (a : Fin 16384) (k : Fin 512) => V2 m ρ c main_v1 (ix2 a k))
    = Cert.Spec.theta (fun a k => m ((c : Thread nD τ).loc main_arg0) (ix2 a k)) (fun a k => m ((c : Thread nD τ).loc main_arg2) (ix2 a k))
        (fun a => m ((c : Thread nD τ).loc main_arg3) (ix1 a)) := by
  funext a k
  have h1 : V2 m ρ c main_v1 (ix2 a k) = (dat0 (V1 m ρ) c).arrAt 3 cfg0.N (ix2 a k) := congrFun (V2_v1 m ρ c) _
  refine h1.trans ((final0 (V1 m ρ) c a k).trans ?_)
  exact congrFun (congrFun (congr (congr (congrArg Cert.Spec.theta (X_at1 m ρ c)) (W_at1 m ρ c)) (B_at1 m ρ c)) a) k

/-- The edge features region 2 reads are the vertex-to-edge stage of H and of those features. -/
theorem XeT_at3 : (fun (k : Fin 512) (e : Fin 8192) => V3 m ρ c main_v2 (ix2 k e))
    = Cert.Spec.v2e (fun a e => m ((c : Thread nD τ).loc main_arg1) (ix2 a e))
        (Cert.Spec.theta (fun a k => m ((c : Thread nD τ).loc main_arg0) (ix2 a k)) (fun a k => m ((c : Thread nD τ).loc main_arg2) (ix2 a k))
          (fun a => m ((c : Thread nD τ).loc main_arg3) (ix1 a))) := by
  funext k e
  have h1 : V3 m ρ c main_v2 (ix2 k e) = (dat1 (V2 m ρ) c).arrAt 2 cfg1.N (ix2 k e) := congrFun (V3_v2 m ρ c) _
  refine h1.trans ((final1 (V2 m ρ) c k e).trans ?_)
  exact congrFun (congrFun (congr (congrArg Cert.Spec.v2e (H_at2 m ρ c)) (Xt_at2 m ρ c)) k) e

end

/-- What region 2's write-backs fold to is the whole layer of the launch contents, entry by entry. -/
theorem result_eq (c : Dev nD) (v : Fin 16384) (o : Fin 512) :
    (dat2 (V3 m ρ) c).arrAt 2 cfg2.N (ix2 v o)
      = Cert.Spec.G (fun a k => m ((c : Thread nD τ).loc main_arg0) (ix2 a k)) (fun a e => m ((c : Thread nD τ).loc main_arg1) (ix2 a e))
          (fun a k => m ((c : Thread nD τ).loc main_arg2) (ix2 a k)) (fun a => m ((c : Thread nD τ).loc main_arg3) (ix1 a)) v o :=
  (final2 (V3 m ρ) c v o).trans
    (congrFun (congrFun (congr (congrArg Cert.Spec.e2v (H_at3 m ρ c)) (XeT_at3 m ρ c)) v) o)

end Cert.KernelIdeal.Hand

end
-- ==== Proof.RefIsG.lean ====
/- The reference's result, read index by index, is the specification. -/
import proofs.«146423_j40303973106024_1_alg».proof.Proof.Gen.ReferenceIdeal.Read
import proofs.«146423_j40303973106024_1_alg».proof.Proof.Spec
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe
open Idealize.ShloMosaic.ValueIdx

/-! ## The composed index functions at coordinates -/

/-- The left operand of the first product is read in row v, at the summed column. -/
theorem lidx1_at (v : Fin 16384) (o k : Fin 512) : lidx_main_v1 (ix2 v o) k = ix2 v k :=
  funext fun a => Fin.ext (by match a with | ⟨0, _⟩ => rfl | ⟨1, _⟩ => rfl)

/-- The transposed weight at (k, o) is the weight at (o, k). -/
theorem widx_at (v : Fin 16384) (o k : Fin 512) : idx_main_v0 (ridx_main_v1 (ix2 v o) k) = ix2 o k :=
  funext fun a => Fin.ext (by match a with | ⟨0, _⟩ => rfl | ⟨1, _⟩ => rfl)

/-- The bias, broadcast to a row and down the rows, is read at the column. -/
theorem bidx_at (v : Fin 16384) (o : Fin 512) : idx_main_v2 (idx_main_v3 (ix2 v o)) = ix1 o :=
  funext fun a => Fin.ext (by match a with | ⟨0, _⟩ => rfl)

/-- The transposed incidence at (e, k) is the incidence at (k, e). -/
theorem hidx_at (e : Fin 8192) (o : Fin 512) (k : Fin 16384) : idx_main_v5 (lidx_main_v6 (ix2 e o) k) = ix2 k e :=
  funext fun a => Fin.ext (by match a with | ⟨0, _⟩ => rfl | ⟨1, _⟩ => rfl)

/-- The right operand of the second product is read in column o, at the summed row. -/
theorem ridx6_at (e : Fin 8192) (o : Fin 512) (k : Fin 16384) : ridx_main_v6 (ix2 e o) k = ix2 k o :=
  funext fun a => Fin.ext (by match a with | ⟨0, _⟩ => rfl | ⟨1, _⟩ => rfl)

/-- The column sum at e runs down column e. -/
theorem idx7_at (e : Fin 8192) (k : Fin 16384) : idx_main_v7 (ix1 e) k = ix2 k e :=
  funext fun a => Fin.ext (by match a with | ⟨0, _⟩ => rfl | ⟨1, _⟩ => rfl)

/-- The hyperedge reciprocals, as a column and across the row, are read at the row. -/
theorem eidx_at (e : Fin 8192) (o : Fin 512) : idx_main_v14 (idx_main_v15 (ix2 e o)) = ix1 e :=
  funext fun a => Fin.ext (by match a with | ⟨0, _⟩ => rfl)

/-- The left operand of the third product is read in row v, at the summed column. -/
theorem lidx17_at (v : Fin 16384) (o : Fin 512) (k : Fin 8192) : lidx_main_v17 (ix2 v o) k = ix2 v k :=
  funext fun a => Fin.ext (by match a with | ⟨0, _⟩ => rfl | ⟨1, _⟩ => rfl)

/-- The right operand of the third product is read in column o, at the summed row. -/
theorem ridx17_at (v : Fin 16384) (o : Fin 512) (k : Fin 8192) : ridx_main_v17 (ix2 v o) k = ix2 k o :=
  funext fun a => Fin.ext (by match a with | ⟨0, _⟩ => rfl | ⟨1, _⟩ => rfl)

/-- The row sum at v runs along row v. -/
theorem idx18_at (v : Fin 16384) (k : Fin 8192) : idx_main_v18 (ix1 v) k = ix2 v k :=
  funext fun a => Fin.ext (by match a with | ⟨0, _⟩ => rfl | ⟨1, _⟩ => rfl)

/-- The vertex reciprocals, as a column and across the row, are read at the row. -/
theorem vidx_at (v : Fin 16384) (o : Fin 512) : idx_main_v25 (idx_main_v26 (ix2 v o)) = ix1 v :=
  funext fun a => Fin.ext (by match a with | ⟨0, _⟩ => rfl)

/-! ## The intermediate arrays, one at a time -/

/-- The linear layer at (v, o): the sum over k of X(v, k) · W(o, k), plus b(o). -/
theorem xt_at (x0 : (⟨S16384x512, .f32⟩ : BufTy).Contents (Elt Ideal)) (x2 : (⟨S512x512, .f32⟩ : BufTy).Contents (Elt Ideal))
    (x3 : (⟨S512, .f32⟩ : BufTy).Contents (Elt Ideal)) (v : Fin 16384) (o : Fin 512) :
    val_main_v4 (F := Ideal) x0 x2 x3 (ix2 v o)
      = Cert.Spec.theta (fun a k => x0 (ix2 a k)) (fun a k => x2 (ix2 a k)) (fun a => x3 (ix1 a)) v o := by
  rw [val_main_v4_apply, val_main_v1_apply, val_main_v3_apply, val_main_v2_apply]
  simp only [val_main_v0_apply, lidx1_at, widx_at, bidx_at, Ideal.addf_def]
  rfl

/-- Inside a sum the two factors of every term may change places. -/
theorem sum_mul_comm {ι : Type} [Fintype ι] (f g : ι → EReal) : ∑ k, f k * g k = ∑ k, g k * f k :=
  Finset.sum_congr rfl fun k _ => mul_comm _ _

/-- The safe reciprocal of hyperedge e's degree: the column sum starts from the zero word, which adds nothing. -/
theorem re_at (x1 : (⟨S16384x8192, .f32⟩ : BufTy).Contents (Elt Ideal)) (e : Fin 8192) :
    val_main_v13 (F := Ideal) x1 (ix1 e) = Cert.Spec.recip (∑ v : Fin 16384, x1 (ix2 v e)) := by
  have h7 : val_main_v7 (F := Ideal) x1 (ix1 e) = ∑ v : Fin 16384, x1 (ix2 v e) := by
    rw [val_main_v7_apply, val_main_cst_apply, Ideal.ofBits_def, Ideal.ofBits_zero_f32, zero_add]
    simp only [idx7_at]
  unfold Cert.Spec.recip
  rw [val_main_v13_apply, val_main_v9_apply, val_main_v12_apply, val_main_v8_apply, val_main_v10_apply,
    val_main_v11_apply, val_main_cst_0_apply, val_main_cst_1_apply, val_main_cst_2_apply, h7]
  simp only [Ideal.cmpf_def, Ideal.ofBits_def, Ideal.hostDivf_def]

/-- The hyperedge features at (e, o): the sum over v of H(v, e) · Xt(v, o), times the reciprocal of e's degree; the two
    factors inside the sum stand in the other order in the specification. -/
theorem xe_at (x0 : (⟨S16384x512, .f32⟩ : BufTy).Contents (Elt Ideal)) (x1 : (⟨S16384x8192, .f32⟩ : BufTy).Contents (Elt Ideal))
    (x2 : (⟨S512x512, .f32⟩ : BufTy).Contents (Elt Ideal)) (x3 : (⟨S512, .f32⟩ : BufTy).Contents (Elt Ideal))
    (e : Fin 8192) (o : Fin 512) :
    val_main_v16 (F := Ideal) x0 x1 x2 x3 (ix2 e o)
      = Cert.Spec.v2e (fun a e => x1 (ix2 a e))
          (Cert.Spec.theta (fun a k => x0 (ix2 a k)) (fun a k => x2 (ix2 a k)) (fun a => x3 (ix1 a))) o e := by
  rw [val_main_v16_apply, val_main_v6_apply, val_main_v15_apply, val_main_v14_apply, eidx_at, re_at]
  simp only [val_main_v5_apply, hidx_at, ridx6_at, xt_at, Ideal.mulf_def, Cert.Spec.v2e]
  rw [sum_mul_comm]

/-- The safe reciprocal of vertex v's degree. -/
theorem rv_at (x1 : (⟨S16384x8192, .f32⟩ : BufTy).Contents (Elt Ideal)) (v : Fin 16384) :
    val_main_v24 (F := Ideal) x1 (ix1 v) = Cert.Spec.recip (∑ e : Fin 8192, x1 (ix2 v e)) := by
  have h18 : val_main_v18 (F := Ideal) x1 (ix1 v) = ∑ e : Fin 8192, x1 (ix2 v e) := by
    rw [val_main_v18_apply, val_main_cst_3_apply, Ideal.ofBits_def, Ideal.ofBits_zero_f32, zero_add]
    simp only [idx18_at]
  unfold Cert.Spec.recip
  rw [val_main_v24_apply, val_main_v20_apply, val_main_v23_apply, val_main_v19_apply, val_main_v21_apply,
    val_main_v22_apply, val_main_cst_4_apply, val_main_cst_5_apply, val_main_cst_6_apply, h18]
  simp only [Ideal.cmpf_def, Ideal.ofBits_def, Ideal.hostDivf_def]

/-- The reference's last stage at (v, o), as a function of the four argument arrays, is the whole layer of the
    specification at (v, o). -/
theorem ref_is_G (x0 : (⟨S16384x512, .f32⟩ : BufTy).Contents (Elt Ideal)) (x1 : (⟨S16384x8192, .f32⟩ : BufTy).Contents (Elt Ideal))
    (x2 : (⟨S512x512, .f32⟩ : BufTy).Contents (Elt Ideal)) (x3 : (⟨S512, .f32⟩ : BufTy).Contents (Elt Ideal))
    (v : Fin 16384) (o : Fin 512) :
    val_main_v28 (F := Ideal) x0 x1 x2 x3 (ix2 v o)
      = Cert.Spec.G (fun a k => x0 (ix2 a k)) (fun a e => x1 (ix2 a e)) (fun a k => x2 (ix2 a k)) (fun a => x3 (ix1 a)) v o := by
  rw [val_main_v28_apply, val_main_v27_apply, val_main_v17_apply, val_main_v26_apply, val_main_v25_apply, vidx_at, rv_at,
    val_main_call2_v0_apply, val_main_call2_cst_apply, Ideal.ofBits_def, Ideal.ofBits_zero_f32]
  simp only [lidx17_at, ridx17_at, xe_at, Ideal.mulf_def, Ideal.maximumf_def, Cert.Spec.G, Cert.Spec.e2v]

end Cert.ReferenceIdeal.RefValue

end
-- ==== Proof.lean ====
/- HGNNP hypergraph convolution as three pipelined kernels (the linear layer; vertices to hyperedges with the per-edge
   mean; hyperedges back to vertices with the per-vertex mean and a clamp at zero) against the plain jnp reference.

   Frames. Each program's @main is one host stretch and three kernel regions in a row. A region's frame is proved from its
   own body's run: region 0 has one control case; regions 1 and 2 carry two scratch buffers (the product accumulator and
   the degree sum) from grid point to grid point, reset where the inner grid coordinate is 0 and read out where it is
   last, and the region's invariant names their contents between those points. The unscoped buffers' contents at each
   boundary are a fold from the launch memory, and the arguments are read back through it unchanged. The text is written
   once, generic in the float instance, and serves both the word-level program and its idealization.

   Values, at the ideal instance. Each region's output array is one function of the arrays it is entered with: the linear
   layer entry by entry; the blockwise accumulation over 16 (resp. 4) grid points is one sum over all 16384 vertices
   (resp. 8192 hyperedges), since addition of extended reals is commutative and associative; the scaling is the safe
   reciprocal of the accumulated degree. Composed, the result array is the specification G of the four inputs. The
   reference's stages read at an index give the same G: only the order of the factors inside each sum differs. No
   finiteness of the inputs is used. -/
import proofs.«146423_j40303973106024_1_alg».proof.Defs
import proofs.«146423_j40303973106024_1_alg».proof.Proof.Gen.Kernel
import proofs.«146423_j40303973106024_1_alg».proof.Proof.Gen.KernelIdeal
import proofs.«146423_j40303973106024_1_alg».proof.Proof.Gen.ReferenceIdeal
import proofs.«146423_j40303973106024_1_alg».proof.Proof.Gen.Pre_finite_inputs
import proofs.«146423_j40303973106024_1_alg».proof.Proof.Gen.ReferenceIdeal.Run
import proofs.«146423_j40303973106024_1_alg».proof.Proof.Gen.ReferenceIdeal.Read
import proofs.«146423_j40303973106024_1_alg».proof.Proof.Bits.Run
import proofs.«146423_j40303973106024_1_alg».proof.Proof.Ideal.Run
import proofs.«146423_j40303973106024_1_alg».proof.Proof.Ideal.Value
import proofs.«146423_j40303973106024_1_alg».proof.Proof.RefIsG
import Idealize.ShloMosaic.Adequacy
import Idealize.ShloMosaic.Init

noncomputable section

namespace Cert.Proof

open Idealize.ShloMosaic Idealize.ShloMosaic.TcCoe Idealize.SL.Sem
open Idealize.ShloMosaic.ValueIdx

/-- The word-level program runs to the end and leaves its arguments as launched. -/
theorem frame_k : @Cert.frame_Kernel Cert.Kernel.Gen.facts Cert.Pre_finite_inputs.Gen.facts :=
  fun m ρ _ => Cert.Kernel.Hand.frame (F := Bits) m ρ

/-- So does its idealization. -/
theorem frame_ki : @Cert.frame_KernelIdeal Cert.KernelIdeal.Gen.facts Cert.Pre_finite_inputs.Gen.facts :=
  fun m ρ _ => Cert.KernelIdeal.Hand.frame (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- At the ideal instance both programs end with the result array at the specification of the launch contents: the
    kernel's by the three stages composed, the reference's by its stages read at an index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => (Cert.KernelIdeal.Hand.dat2 (Cert.KernelIdeal.Hand.V3 m ρ) c).arrAt 2 Cert.KernelIdeal.cfg2.N,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq]
  funext i
  obtain ⟨v, o, rfl⟩ : ∃ (v : Fin 16384) (o : Fin 512), i = ix2 v o := ⟨i 0, i 1, eq_ix2 i⟩
  rw [Cert.ReferenceIdeal.RefValue.ref_is_G, (hagree c).1, (hagree c).2.1, (hagree c).2.2.1, (hagree c).2.2.2]
  exact (Cert.KernelIdeal.Hand.result_eq m ρ c v o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
